-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x1024 : Shape := ⟨3, ![64, 256, 1024]⟩
abbrev S64 : Shape := ⟨1, ![64]⟩
abbrev S16x1024x4096 : Shape := ⟨3, ![16, 1024, 4096]⟩
abbrev S16x4096 : Shape := ⟨2, ![16, 4096]⟩
abbrev S_ : Shape := ⟨0, ![]⟩

class Facts : Prop where
  bcast_S_S64x256x1024 : S_.BroadcastsInDim S64x256x1024 (![] : Fin 0 → Fin S64x256x1024.rank)
  reducesTo_S64x256x1024_S_d0_1_2 : S64x256x1024.ReducesTo [0, 1, 2] S_
  h_S_ : 0 < S_.numel
  bcast_S_S16x1024x4096 : S_.BroadcastsInDim S16x1024x4096 (![] : Fin 0 → Fin S16x1024x4096.rank)
  reducesTo_S16x1024x4096_S_d0_1_2 : S16x1024x4096.ReducesTo [0, 1, 2] S_
  bcast_S_S16x4096 : S_.BroadcastsInDim S16x4096 (![] : Fin 0 → Fin S16x4096.rank)
  reducesTo_S16x4096_S_d0_1 : S16x4096.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg1 : IVec S64 32) (main_v13 : IVec S_ 1) (main_v15 : IVec S64 1) (main_c_5 : IVec S_ 1) : IVec S_ 1 :=
  let main_v16 : IVec S_ 1 := (fun x v => Host.reduce IntOp.andi x v reducesTo_S64_S_d0 h_S_) main_v15 main_c_5
  let main_v17 : IVec S_ 1 := andi main_v13 main_v16
  let main_c_6 : IVec S_ 32 := constantI S_ 32 16#32
  let main_v18 : IVec S64 32 := broadcastInDim S64 ![] bcast_S_S64 main_c_6
  let main_v19 : IVec S64 1 := cmpi .slt main_arg1 main_v18
  let main_c_7 : IVec S_ 1 := constantI S_ 1 1#1
  let main_v20 : IVec S_ 1 := (fun x v => Host.reduce IntOp.andi x v reducesTo_S64_S_d0 h_S_) main_v19 main_c_7
  let main_v21 : IVec S_ 1 := andi main_v17 main_v20
  main_v21

def fn {F : FTy → Type} [FloatOps F] (main_arg0 : FVec F S64x256x1024 .f32) (main_arg1 : IVec S64 32) (main_arg2 : FVec F S16x1024x4096 .f32) (main_arg3 : FVec F S16x4096 .f32) : IVec S_ 1 :=
  let main_v0 : FVec F S64x256x1024 .f32 := Host.absf main_arg0
  let main_cst : FVec F S_ .f32 := constant S_ .f32 0x7F800000#32
  let main_v1 : FVec F S64x256x1024 .f32 := broadcastInDim S64x256x1024 ![] bcast_S_S64x256x1024 main_cst
  let main_v2 : IVec S64x256x1024 1 := cmpf .olt main_v0 main_v1
  let main_c : IVec S_ 1 := constantI S_ 1 1#1
  let main_v3 : IVec S_ 1 := (fun x v => Host.reduce IntOp.andi x v reducesTo_S64x256x1024_S_d0_1_2 h_S_) main_v2 main_c
  let main_v4 : FVec F S16x1024x4096 .f32 := Host.absf main_arg2
  let main_cst_0 : FVec F S_ .f32 := constant S_ .f32 0x7F800000#32
  let main_v5 : FVec F S16x1024x4096 .f32 := broadcastInDim S16x1024x4096 ![] bcast_S_S16x1024x4096 main_cst_0
  let main_v6 : IVec S16x1024x4096 1 := cmpf .olt main_v4 main_v5
  let main_c_1 : IVec S_ 1 := constantI S_ 1 1#1
  let main_v7 : IVec S_ 1 := (fun x v => Host.reduce IntOp.andi x v reducesTo_S16x1024x4096_S_d0_1_2 h_S_) main_v6 main_c_1
  let main_v8 : IVec S_ 1 := andi main_v3 main_v7
  let main_v9 : FVec F S16x4096 .f32 := Host.absf main_arg3
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_c_4 : IVec S_ 32 := constantI S_ 32 0#32
  let main_v14 : IVec S64 32 := broadcastInDim S64 ![] bcast_S_S64 main_c_4
  let main_v15 : IVec S64 1 := cmpi .sge main_arg1 main_v14
  let main_c_5 : IVec S_ 1 := constantI S_ 1 1#1
  fn_part1 (F := F) main_arg1 main_v13 main_v15 main_c_5
-- ==== Kernel.lean ====
abbrev S64x256x1024 : Shape := ⟨3, ![64, 256, 1024]⟩
abbrev S64 : Shape := ⟨1, ![64]⟩
abbrev S16x1024x4096 : Shape := ⟨3, ![16, 1024, 4096]⟩
abbrev S16x4096 : Shape := ⟨2, ![16, 4096]⟩
abbrev S_ : Shape := ⟨0, ![]⟩
abbrev S64x1 : Shape := ⟨2, ![64, 1]⟩
abbrev S16x1x4096 : Shape := ⟨3, ![16, 1, 4096]⟩
abbrev S64x256x4096 : Shape := ⟨3, ![64, 256, 4096]⟩
abbrev S1x256x1024 : Shape := ⟨3, ![1, 256, 1024]⟩
abbrev S1 : Shape := ⟨1, ![1]⟩
abbrev S1x1024x2048 : Shape := ⟨3, ![1, 1024, 2048]⟩
abbrev S1x1x2048 : Shape := ⟨3, ![1, 1, 2048]⟩
abbrev S1x256x2048 : Shape := ⟨3, ![1, 256, 2048]⟩
abbrev S256x1024 : Shape := ⟨2, ![256, 1024]⟩
abbrev S1024x2048 : Shape := ⟨2, ![1024, 2048]⟩
abbrev S256x2048 : Shape := ⟨2, ![256, 2048]⟩
abbrev S2048 : Shape := ⟨1, ![2048]⟩
abbrev S1x2048 : Shape := ⟨2, ![1, 2048]⟩

abbrev nBuf : Space → Nat
  | .hbm => 24
  | .vmem => 8
  | .smem => 2
  | _ => 0

abbrev bufTy : (tb : Table) → Fin (tcTables nBuf tb) → BufTy
  | .hbm, ⟨0, _⟩ => ⟨S64x256x1024, .f32⟩
  | .hbm, ⟨1, _⟩ => ⟨S64, .i32⟩
  | .hbm, ⟨2, _⟩ => ⟨S16x1024x4096, .f32⟩
  | .hbm, ⟨3, _⟩ => ⟨S16x4096, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S64, .i32⟩
  | .hbm, ⟨8, _⟩ => ⟨S64, .i32⟩
  | .hbm, ⟨9, _⟩ => ⟨S_, .i32⟩
  | .hbm, ⟨10, _⟩ => ⟨S64, .i32⟩
  | .hbm, ⟨11, _⟩ => ⟨S64, .i32⟩
  | .hbm, ⟨12, _⟩ => ⟨S64, .i32⟩
  | .hbm, ⟨13, _⟩ => ⟨S64, .i32⟩
  | .hbm, ⟨14, _⟩ => ⟨S_, .i32⟩
  | .hbm, ⟨15, _⟩ => ⟨S64, .i32⟩
  | .hbm, ⟨16, _⟩ => ⟨S64, .i1⟩
  | .hbm, ⟨17, _⟩ => ⟨S_, .i32⟩
  | .hbm, ⟨18, _⟩ => ⟨S64, .i32⟩
  | .hbm, ⟨19, _⟩ => ⟨S64, .i32⟩
  | .hbm, ⟨20, _⟩ => ⟨S64, .i32⟩
  | .hbm, ⟨21, _⟩ => ⟨S64x1, .i32⟩
  | .hbm, ⟨22, _⟩ => ⟨S16x1x4096, .f32⟩
  | .hbm, ⟨23, _⟩ => ⟨S64x256x4096, .f32⟩
  | .local _ .vmem, ⟨0, _⟩ => ⟨S1x256x1024, .f32⟩
  | .local _ .vmem, ⟨1, _⟩ => ⟨S1x256x1024, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x256x2048, .f32⟩
  | .local _ .vmem, ⟨7, _⟩ => ⟨S1x256x2048, .f32⟩
  | .local _ .smem, ⟨0, _⟩ => ⟨S64, .i32⟩
  | .local _ .smem, ⟨1, _⟩ => ⟨S64, .i32⟩
  | _, _ => ⟨S64x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_call1_v0 : Ref sig .tc := ⟨.hbm, 12, rfl⟩
abbrev main_call1_v1_0 : Ref sig .tc := ⟨.hbm, 13, rfl⟩
abbrev main_c_1 : Ref sig .tc := ⟨.hbm, 14, rfl⟩
abbrev main_v2 : Ref sig .tc := ⟨.hbm, 15, rfl⟩
abbrev main_v3 : Ref sig .tc := ⟨.hbm, 16, rfl⟩
abbrev main_c_2 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v9 : Ref sig .tc := ⟨.hbm, 22, rfl⟩
abbrev main_v10 : Ref sig .tc := ⟨.hbm, 23, rfl⟩
abbrev main_v8 : Ref sig .tc := ⟨.smem, 0, rfl⟩
abbrev main_v1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 64], ![false, false]⟩

abbrev pre0 : Pipeline.Prefetch sig := ⟨2, ![main_v8.idx, main_v1.idx], fun | 0 => main_v8.names | 1 => main_v1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def cc0_transform_0 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S64) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S64) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S64) ![v0.toNat] S1.size (k0_off1_inb i)) numel1_S1
  let c0_i32 : BitVec 32 := 0#32
  let c0_i32_0 : BitVec 32 := 0#32
  ![v1.toNat, c0_i32.toNat, arg0.toNat]

def cc0_transform_3 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S64) ![v0.toNat] S1.size (k0_off1_inb i)) numel1_S1
  let c0_i32 : BitVec 32 := 0#32
  let c0_i32_0 : BitVec 32 := 0#32
  ![v1.toNat, c0_i32.toNat, arg0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S64 : S_.BroadcastsInDim S64 (![] : Fin 0 → Fin S64.rank)
  bcast_S64_S64x1_0 : S64.BroadcastsInDim S64x1 (![0] : Fin 1 → Fin S64x1.rank)
  bcast_S16x4096_S16x1x4096_0_2 : S16x4096.BroadcastsInDim S16x1x4096 (![0, 2] : Fin 2 → Fin S16x1x4096.rank)
  numel1_S1 : S1.numel = 1
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  bitsLt_bf16_f32 : FTy.bits .bf16 < FTy.bits .f32
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S2048 : S1x1x2048.ShapeCasts S2048
  shapeCasts_S2048_S1x2048 : S2048.ShapeCasts S1x2048
  broadcasts_S1x2048_S256x2048 : S1x2048.Broadcasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  gather_S64_S64x1_S64_n_0_n_n_0_1_1_wf : GatherDims.WF S64 S64x1 S64 [] [0] [] [0] [] 1 ![1]
  dot_S256x1024_S1024x2048_S256x2048_1_0_0_1_n_n_wf : DotDims.WF S256x1024 S1024x2048 S256x2048 [1] [0] [0] [1] [] []
  hrank0 : 0 < grid0.rank
  k0_off1_inb : ∀ i : grid0.Coords, ∀ a, (k0_off1 i) a + S1.size a ≤ S64.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'

variable [Facts₀]

def comparator_i32_i32_d0 : BitVec 32 × BitVec 32 → BitVec 32 × BitVec 32 → BitVec 1 :=
  fun l r =>
    let v2 := IntOp.cmpi .slt l.1 r.1
    v2
def gather_S64_S64x1_S64_n_0_n_n_0_1_1 : GatherDims S64 S64x1 S64 where
  offsetDims := []
  collapsedSliceDims := [0]
  operandBatchingDims := []
  startIndicesBatchingDims := []
  startIndexMap := [0]
  indexVectorDim := 1
  sliceSizes := ![1]
  wf := gather_S64_S64x1_S64_n_0_n_n_0_1_1_wf
def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf

abbrev spec0_0 : Pipeline.WinSpec sig grid0.rank :=
  Pipeline.WinSpec.ofSpec (Memref.whole main_arg0) S1x256x1024.size reads0_0 false false 2 stage0_0 sem0_0 nbuf0_0 hstage0_0

abbrev spec0_1 : Pipeline.WinSpec sig grid0.rank :=
  Pipeline.WinSpec.ofSpec (Memref.whole main_arg2) S1x1024x2048.size reads0_1 false false 2 stage0_1 sem0_1 nbuf0_1 hstage0_1

abbrev spec0_2 : Pipeline.WinSpec sig grid0.rank :=
  Pipeline.WinSpec.ofSpec (Memref.whole main_v9) S1x1x2048.size reads0_2 false false 2 stage0_2 sem0_2 nbuf0_2 hstage0_2

abbrev spec0_3 : Pipeline.WinSpec sig grid0.rank :=
  Pipeline.WinSpec.ofSpec (Memref.whole main_v10) S1x256x2048.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 k0_off1_inb numel1_S1 pf | 1 => cc0_transform_1 k0_off1_inb numel1_S1 pf | 2 => cc0_transform_2 k0_off1_inb numel1_S1 pf | 3 => cc0_transform_3 k0_off1_inb numel1_S1 pf | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 pf | 3 => hreads0_3 pf | ⟨_ + 4, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x256x1024.size a ≤ S64x256x1024.size a), EltTy.bits .f32 = 32 ∨ (Rect.block (s := S64x256x1024) S1x256x1024.size (cc0_transform_0 k0_off1_inb numel1_S1 pf i) h).WholeWords (EltTy.packing .f32)) ∧
  (∀ i : grid0.Coords, ∃ h : (∀ a, (cc0_transform_1 k0_off1_inb numel1_S1 pf i a + 1) * S1x1024x2048.size a ≤ S16x1024x4096.size a), EltTy.bits .f32 = 32 ∨ (Rect.block (s := S16x1024x4096) S1x1024x2048.size (cc0_transform_1 k0_off1_inb numel1_S1 pf i) h).WholeWords (EltTy.packing .f32)) ∧
  (∀ i : grid0.Coords, ∃ h : (∀ a, (cc0_transform_2 k0_off1_inb numel1_S1 pf i a + 1) * S1x1x2048.size a ≤ S16x1x4096.size a), EltTy.bits .f32 = 32 ∨ (Rect.block (s := S16x1x4096) S1x1x2048.size (cc0_transform_2 k0_off1_inb numel1_S1 pf i) h).WholeWords (EltTy.packing .f32)) ∧
  (∀ i : grid0.Coords, ∃ h : (∀ a, (cc0_transform_3 k0_off1_inb numel1_S1 pf i a + 1) * S1x256x2048.size a ≤ S64x256x4096.size a), EltTy.bits .f32 = 32 ∨ (Rect.block (s := S64x256x4096) S1x256x2048.size (cc0_transform_3 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2 i).elim fun h _ => h a | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2.1 i).elim fun _ h => h | 2 => fun i => (hok.2.2.1 i).elim fun _ h => h | 3 => fun i => (hok.2.2.2 i).elim fun _ h => h | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S64x256x1024 : Shape := ⟨3, ![64, 256, 1024]⟩
abbrev S64 : Shape := ⟨1, ![64]⟩
abbrev S16x1024x4096 : Shape := ⟨3, ![16, 1024, 4096]⟩
abbrev S16x4096 : Shape := ⟨2, ![16, 4096]⟩
abbrev S_ : Shape := ⟨0, ![]⟩
abbrev S64x1 : Shape := ⟨2, ![64, 1]⟩
abbrev S64x1024x4096 : Shape := ⟨3, ![64, 1024, 4096]⟩
abbrev S64x4096 : Shape := ⟨2, ![64, 4096]⟩
abbrev S64x256x4096 : Shape := ⟨3, ![64, 256, 4096]⟩
abbrev S64x1x4096 : Shape := ⟨3, ![64, 1, 4096]⟩

abbrev nBuf : Space → Nat
  | .hbm => 26
  | .vmem => 0
  | .smem => 0
  | _ => 0

abbrev bufTy : (tb : Table) → Fin (tcTables nBuf tb) → BufTy
  | .hbm, ⟨0, _⟩ => ⟨S64x256x1024, .f32⟩
  | .hbm, ⟨1, _⟩ => ⟨S64, .i32⟩
  | .hbm, ⟨2, _⟩ => ⟨S16x1024x4096, .f32⟩
  | .hbm, ⟨3, _⟩ => ⟨S16x4096, .f32⟩
  | .hbm, ⟨4, _⟩ => ⟨S_, .i32⟩
  | .hbm, ⟨5, _⟩ => ⟨S64, .i32⟩
  | .hbm, ⟨6, _⟩ => ⟨S64, .i1⟩
  | .hbm, ⟨7, _⟩ => ⟨S_, .i32⟩
  | .hbm, ⟨8, _⟩ => ⟨S64, .i32⟩
  | .hbm, ⟨9, _⟩ => ⟨S64, .i32⟩
  | .hbm, ⟨10, _⟩ => ⟨S64, .i32⟩
  | .hbm, ⟨11, _⟩ => ⟨S64x1, .i32⟩
  | .hbm, ⟨12, _⟩ => ⟨S64x1024x4096, .f32⟩
  | .hbm, ⟨13, _⟩ => ⟨S_, .i32⟩
  | .hbm, ⟨14, _⟩ => ⟨S64, .i32⟩
  | .hbm, ⟨15, _⟩ => ⟨S64, .i1⟩
  | .hbm, ⟨16, _⟩ => ⟨S_, .i32⟩
  | .hbm, ⟨17, _⟩ => ⟨S64, .i32⟩
  | .hbm, ⟨18, _⟩ => ⟨S64, .i32⟩
  | .hbm, ⟨19, _⟩ => ⟨S64, .i32⟩
  | .hbm, ⟨20, _⟩ => ⟨S64x1, .i32⟩
  | .hbm, ⟨21, _⟩ => ⟨S64x4096, .f32⟩
  | .hbm, ⟨22, _⟩ => ⟨S64x256x4096, .f32⟩
  | .hbm, ⟨23, _⟩ => ⟨S64x1x4096, .f32⟩
  | .hbm, ⟨24, _⟩ => ⟨S64x256x4096, .f32⟩
  | .hbm, ⟨25, _⟩ => ⟨S64x256x4096, .f32⟩
  | _, _ => ⟨S64x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S_S64 : S_.BroadcastsInDim S64 (![] : Fin 0 → Fin S64.rank)
  bcast_S64_S64x1_0 : S64.BroadcastsInDim S64x1 (![0] : Fin 1 → Fin S64x1.rank)
  bcast_S64x4096_S64x1x4096_0_2 : S64x4096.BroadcastsInDim S64x1x4096 (![0, 2] : Fin 2 → Fin S64x1x4096.rank)
  bcast_S64x1x4096_S64x256x4096_0_1_2 : S64x1x4096.BroadcastsInDim S64x256x4096 (![0, 1, 2] : Fin 3 → Fin S64x256x4096.rank)
  gather_S16x1024x4096_S64x1_S64x1024x4096_12_0_n_n_0_1_110244096_wf : GatherDims.WF S16x1024x4096 S64x1 S64x1024x4096 [1, 2] [0] [] [0] [] 1 ![1, 1024, 4096]
  gather_S16x4096_S64x1_S64x4096_1_0_n_n_0_1_14096_wf : GatherDims.WF S16x4096 S64x1 S64x4096 [1] [0] [] [0] [] 1 ![1, 4096]
  dot_S64x256x1024_S64x1024x4096_S64x256x4096_2_1_1_2_0_0_wf : DotDims.WF S64x256x1024 S64x1024x4096 S64x256x4096 [2] [1] [1] [2] [0] [0]

variable [Facts₀]

def gather_S16x1024x4096_S64x1_S64x1024x4096_12_0_n_n_0_1_110244096 : GatherDims S16x1024x4096 S64x1 S64x1024x4096 where
  offsetDims := [1, 2]
  collapsedSliceDims := [0]
  operandBatchingDims := []
  startIndicesBatchingDims := []
  startIndexMap := [0]
  indexVectorDim := 1
  sliceSizes := ![1, 1024, 4096]
  wf := gather_S16x1024x4096_S64x1_S64x1024x4096_12_0_n_n_0_1_110244096_wf
def gather_S16x4096_S64x1_S64x4096_1_0_n_n_0_1_14096 : GatherDims S16x4096 S64x1 S64x4096 where
  offsetDims := [1]
  collapsedSliceDims := [0]
  operandBatchingDims := []
  startIndicesBatchingDims := []
  startIndexMap := [0]
  indexVectorDim := 1
  sliceSizes := ![1, 4096]
  wf := gather_S16x4096_S64x1_S64x4096_1_0_n_n_0_1_14096_wf
def dot_S64x256x1024_S64x1024x4096_S64x256x4096_2_1_1_2_0_0 : DotDims S64x256x1024 S64x1024x4096 S64x256x4096 where
  lhsContracting := [2]
  rhsContracting := [1]
  lhsNonContracting := [1]
  rhsNonContracting := [2]
  lhsBatch := [0]
  rhsBatch := [0]
  wf := dot_S64x256x1024_S64x1024x4096_S64x256x4096_2_1_1_2_0_0_wf

class Facts : Prop extends Facts₀ where

variable [Facts]
-- ==== Proof.SortWords.lean ====
/-
  Two families of facts that do not depend on the program.

  A stable sort of a key array carrying a second array permutes both by ONE self-map of the positions, which is a
  bijection; on a one-axis array the carried array after the sort is the carried array read through that map. When the
  carried array is the list of positions 0, 1, 2, …, the result lists the positions in sorted order (an argsort).

  Small words: a 32-bit word that is the numeral of n < 64 is non-negative, so "add 64 if negative" leaves it alone, its
  signed reading clamped into [0, 63] is n, and its natural-number reading is n. Clamping any word into [0, 15] as a signed
  number gives a word whose natural-number reading is below 16, and leaves a numeral below 16 alone.
-/
import Idealize.ShloMosaic.Lib.SortFacts
import Idealize.ShloMosaic.Lib.ValueIdx

noncomputable section

namespace Cert.SortWords

open Idealize.ShloMosaic Idealize.ShloMosaic.ValueIdx

/-- The rank-1 index built from a coordinate, in either of the library's two spellings. -/
theorem ofFin_eq_ix1 {n : Nat} (k : Fin n) : Shape.Idx.ofFin k = ix1 k := by
  funext a
  match a with
  | ⟨0, _⟩ => exact Fin.ext rfl

/-- The map of positions a stable sort of the pairs (x k, y k) applies: sorted position ↦ source position. -/
def sortMap {n : Nat} {α β : Type} (cmp : α × β → α × β → BitVec 1) (x : (⟨1, ![n]⟩ : Shape).Idx → α)
    (y : (⟨1, ![n]⟩ : Shape).Idx → β) : Fin n → Fin n :=
  sortedFrom fun k k' => cmp (x (Shape.Idx.ofFin k), y (Shape.Idx.ofFin k)) (x (Shape.Idx.ofFin k'), y (Shape.Idx.ofFin k')) == 1#1

theorem sortMap_surjective {n : Nat} {α β : Type} (cmp : α × β → α × β → BitVec 1) (x : (⟨1, ![n]⟩ : Shape).Idx → α)
    (y : (⟨1, ![n]⟩ : Shape).Idx → β) : Function.Surjective (sortMap cmp x y) := sortedFrom_surjective _

theorem sortMap_injective {n : Nat} {α β : Type} (cmp : α × β → α × β → BitVec 1) (x : (⟨1, ![n]⟩ : Shape).Idx → α)
    (y : (⟨1, ![n]⟩ : Shape).Idx → β) : Function.Injective (sortMap cmp x y) := sortedFrom_injective _

/-- On a one-axis array the carried array after the sort is the carried array read through the sort's map. -/
theorem sort2_snd_rank1 {n : Nat} {α β : Type} (cmp : α × β → α × β → BitVec 1) (x : (⟨1, ![n]⟩ : Shape).Idx → α)
    (y : (⟨1, ![n]⟩ : Shape).Idx → β) (k : Fin n) :
    (Host.sort2 ⟨1, ![n]⟩ 0 cmp x y).2 (ix1 k) = y (ix1 (sortMap cmp x y k)) := by
  unfold Host.sort2 sortMap
  simp [ofFin_eq_ix1]

/-- Sorting with the positions carried along lists the source positions: an argsort's entry is its map's value. -/
theorem argsort_apply {n : Nat} {α : Type} (cmp : α × BitVec 32 → α × BitVec 32 → BitVec 1)
    (x : (⟨1, ![n]⟩ : Shape).Idx → α) (k : Fin n) :
    (Host.sort2 ⟨1, ![n]⟩ 0 cmp x (iotaInDim ⟨1, ![n]⟩ 32 0)).2 (ix1 k)
      = BitVec.ofNat 32 (sortMap cmp x (iotaInDim ⟨1, ![n]⟩ 32 0) k).val := by
  rw [sort2_snd_rank1]
  rfl

/-! ## Small words -/

theorem sel64 : ∀ n : Fin 64, Scalar.select (IntOp.cmpi .slt (BitVec.ofNat 32 n.val) 0#32)
    (IntOp.addi (BitVec.ofNat 32 n.val) 64#32) (BitVec.ofNat 32 n.val) = BitVec.ofNat 32 n.val := by decide

theorem clamp64 : ∀ n : Fin 64, min (BitVec.ofNat 32 n.val).toInt.toNat 63 = n.val := by decide

theorem toNat64 : ∀ n : Fin 64, (BitVec.ofNat 32 n.val).toNat = n.val := by decide

theorem clip_id : ∀ n : Fin 16, IntOp.minsi 15#32 (IntOp.maxsi 0#32 (BitVec.ofNat 32 n.val)) = BitVec.ofNat 32 n.val := by
  decide

theorem toNat16 : ∀ n : Fin 16, (BitVec.ofNat 32 n.val).toNat = n.val := by decide

/-- Any word clamped into [0, 15] as a signed number reads, as a natural number, below 16. -/
theorem clip_lt (w : BitVec 32) : (IntOp.minsi 15#32 (IntOp.maxsi 0#32 w)).toNat < 16 := by
  unfold IntOp.minsi IntOp.maxsi
  by_cases h1 : w.slt 0#32 = true
  · rw [if_pos h1]; decide
  · rw [if_neg h1]
    by_cases h2 : (15#32 : BitVec 32).slt w = true
    · rw [if_pos h2]; decide
    · rw [if_neg h2]
      simp only [BitVec.slt, decide_eq_true_eq, BitVec.toInt] at h1 h2
      have := w.isLt
      split at h1 <;> simp at h1 h2 <;> omega

end Cert.SortWords

end
-- ==== Proof.TablesBits.lean ====
/-
  What the two prefetched tables hold. The program clamps the category ids into [0, 15], sorts the batch positions by
  clamped id (a stable argsort), and reads the clamped ids in that order. So there is a bijection σ of the 64 batch
  positions (sorted position ↦ batch row) with

      row table[k]      = the numeral of σ k,
      category table[k] = the clamped id of batch row σ k,

  and every block the pipeline addresses through the tables lies inside its array: a row below 64, a category below 16.
-/
import proofs.«416199_j2723009266339_3_alg».proof.Proof.Gen.Kernel.Frame
import proofs.«416199_j2723009266339_3_alg».proof.Proof.SortWords
import Idealize.ShloMosaic.Lib.Pipeline.Value
import Idealize.ShloMosaic.Lib.StableHlo.Run

set_option maxRecDepth 16384

noncomputable section

open Idealize.ShloMosaic Idealize.ShloMosaic.TcCoe Idealize.SL.Sem Idealize.ShloMosaic.ValueIdx

namespace Cert.Kernel.Tables

open Cert.Kernel Cert.Kernel.Gen Cert.SortWords

variable {F : FTy → Type} [FloatOps F]

/-! ## The host operations before the call, as functions of the category ids -/

/-- The ids clamped into [0, 15] as signed numbers. -/
def clip (x : IVec S64 32) : IVec S64 32 :=
  minsi (broadcastInDim S64 ![] bcast_S_S64 (constantI S_ 32 15#32))
    (maxsi (broadcastInDim S64 ![] bcast_S_S64 (constantI S_ 32 0#32)) x)

/-- The batch positions sorted by clamped id: the stable sort of the pairs (clamped id, position), positions kept. -/
def perm (x : IVec S64 32) : IVec S64 32 :=
  (Host.sort2 S64 0 comparator_i32_i32_d0 (clip x) (iotaInDim S64 32 0)).2

/-- The clamped ids read in sorted order (a negative position would be counted from the end; none is). -/
def sortedCat (x : IVec S64 32) : IVec S64 32 :=
  Host.gather gather_S64_S64x1_S64_n_0_n_n_0_1_1 (clip x)
    (broadcastInDim S64x1 ![0] bcast_S64_S64x1_0
      (select (cmpi .slt (perm x) (broadcastInDim S64 ![] bcast_S_S64 (constantI S_ 32 0#32)))
        (addi (perm x) (broadcastInDim S64 ![] bcast_S_S64 (constantI S_ 32 64#32))) (perm x)))

/-- The sort's map of positions: sorted position ↦ batch row. -/
def σ (x : IVec S64 32) : Fin 64 → Fin 64 := sortMap comparator_i32_i32_d0 (clip x) (iotaInDim S64 32 0)

theorem σ_surjective (x : IVec S64 32) : Function.Surjective (σ x) := sortMap_surjective _ _ _
theorem σ_injective (x : IVec S64 32) : Function.Injective (σ x) := sortMap_injective _ _ _

/-- A clamped id is the clamp of the id. -/
theorem clip_apply (x : IVec S64 32) (j : S64.Idx) : clip x j = IntOp.minsi 15#32 (IntOp.maxsi 0#32 (x j)) := by
  show IntOp.minsi (broadcastInDim S64 ![] bcast_S_S64 (constantI S_ 32 15#32) j)
    (IntOp.maxsi (broadcastInDim S64 ![] bcast_S_S64 (constantI S_ 32 0#32) j) (x j)) = _
  rw [broadcastInDim_apply _ bcast_S_S64 _ j ValueIdx.ix0 (fun a => a.elim0),
    broadcastInDim_apply _ bcast_S_S64 _ j ValueIdx.ix0 (fun a => a.elim0)]
  rfl

/-- Entry k of the sorted positions is the numeral of σ k. -/
theorem perm_apply (x : IVec S64 32) (k : Fin 64) : perm x (ix1 k) = BitVec.ofNat 32 (σ x k).val :=
  argsort_apply comparator_i32_i32_d0 (clip x) k

/-- The one-axis gather at position k reads its operand at the start index there, read signed and clamped to [0, 63]. -/
theorem gather_apply (y : IVec S64 32) (idx : IVec S64x1 32) (k : Fin 64) :
    Host.gather gather_S64_S64x1_S64_n_0_n_n_0_1_1 y idx (ix1 k)
      = y (ix1 ⟨min (idx (ix2 k (0 : Fin 1))).toInt.toNat 63, by omega⟩) := by
  unfold Host.gather
  refine congrArg y ?_
  funext a
  obtain rfl : a = 0 := Subsingleton.elim _ _
  refine Fin.ext ?_
  show gather_S64_S64x1_S64_n_0_n_n_0_1_1.start (ix1 k) idx 0 + gather_S64_S64x1_S64_n_0_n_n_0_1_1.batchCoord (ix1 k) 0
    + gather_S64_S64x1_S64_n_0_n_n_0_1_1.offCoord (ix1 k) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S64_S64x1_S64_n_0_n_n_0_1_1.startIndexMap from List.mem_singleton.mpr rfl)]
  have hsi : gather_S64_S64x1_S64_n_0_n_n_0_1_1.siIdx (ix1 k) ⟨List.idxOf (0 : Fin 1) gather_S64_S64x1_S64_n_0_n_n_0_1_1.startIndexMap,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]
  rfl

/-- The start index the gather reads at position k, for ANY array of positions whose entry k is the numeral of n < 64:
    such a word is not negative, so it is not counted from the end, and read signed and clamped into [0, 63] it is n. -/
theorem start_idx (pm : IVec S64 32) (k n : Fin 64) (hp : pm (ix1 k) = BitVec.ofNat 32 n.val) :
    min (broadcastInDim S64x1 ![0] bcast_S64_S64x1_0
      (select (cmpi .slt pm (broadcastInDim S64 ![] bcast_S_S64 (constantI S_ 32 0#32)))
        (addi pm (broadcastInDim S64 ![] bcast_S_S64 (constantI S_ 32 64#32))) pm) (ix2 k (0 : Fin 1))).toInt.toNat 63 = n.val := by
  rw [broadcastInDim_apply _ bcast_S64_S64x1_0 _ (ix2 k (0 : Fin 1)) (ix1 k) (fun a => match a with
    | ⟨0, _⟩ => by show k.val = if (64 : Nat) = 1 then 0 else k.val; rw [if_neg (by decide)])]
  show min (Scalar.select (IntOp.cmpi .slt (pm (ix1 k)) (broadcastInDim S64 ![] bcast_S_S64 (constantI S_ 32 0#32) (ix1 k)))
    (IntOp.addi (pm (ix1 k)) (broadcastInDim S64 ![] bcast_S_S64 (constantI S_ 32 64#32) (ix1 k))) (pm (ix1 k))).toInt.toNat 63 = _
  rw [broadcastInDim_apply _ bcast_S_S64 _ (ix1 k) ValueIdx.ix0 (fun a => a.elim0),
    broadcastInDim_apply _ bcast_S_S64 _ (ix1 k) ValueIdx.ix0 (fun a => a.elim0), hp]
  show min (Scalar.select (IntOp.cmpi .slt (BitVec.ofNat 32 n.val) 0#32)
    (IntOp.addi (BitVec.ofNat 32 n.val) 64#32) (BitVec.ofNat 32 n.val)).toInt.toNat 63 = _
  rw [sel64, clamp64]

/-- Entry k of the ids in sorted order is the clamped id of batch row σ k. -/
theorem sortedCat_apply (x : IVec S64 32) (k : Fin 64) : sortedCat x (ix1 k) = clip x (ix1 (σ x k)) := by
  unfold sortedCat
  rw [gather_apply]
  refine congrArg (clip x) (congrArg ix1 (Fin.ext ?_))
  exact start_idx (perm x) k (σ x k) (perm_apply x k)

/-! ## The tables are those functions of the launched ids -/

variable (m : (ℓ : Loc nD τ sig) → Buf (Elt F) ℓ)

/-- The category ids as launched (the program runs on one device). -/
abbrev cat : IVec S64 32 := m (((0 : Dev nD) : Thread nD τ).loc main_arg1)

set_option maxHeartbeats 1000000 in
/-- The row table is the argsort of the clamped ids. -/
theorem tbl1_eq : tbl m 1 = perm (cat m) := by
  unfold tbl
  show V m 0 main_v1 = _
  dsimp only [V]
  simp only [hostOps0, hostOps0_1, hostOps0_2, hostOps0_3, List.flatten_cons, List.flatten_nil, List.append_nil, List.cons_append, List.nil_append]
  after_results
  rfl

set_option maxHeartbeats 1000000 in
/-- The category table is the clamped ids in sorted order. -/
theorem tbl0_eq : tbl m 0 = sortedCat (cat m) := by
  unfold tbl
  show V m 0 main_v8 = _
  dsimp only [V]
  simp only [hostOps0, hostOps0_1, hostOps0_2, hostOps0_3, List.flatten_cons, List.flatten_nil, List.append_nil, List.cons_append, List.nil_append]
  after_results
  rfl

/-! ## The index maps at any contents of the tables, and the pipeline's side condition

A grid point (h, k) — h the column half, k the position in sorted order — addresses input block (row table[k], 0, 0),
weight and bias blocks (category table[k], 0, h) and output block (row table[k], 0, h). -/

section IndexMaps

/-- A grid point's two coordinates, as numbers below 2 and below 64. -/
def hiOf (i : grid0.Coords) : Fin 2 := ⟨(i 0).val, (i 0).isLt⟩
def biOf (i : grid0.Coords) : Fin 64 := ⟨(i 1).val, (i 1).isLt⟩

/-- A word that is the numeral of a number below 64 reads as that number. -/
theorem ofNat_toNat_lt (n : Nat) (h : n < 64) : (BitVec.ofNat 32 n).toNat = n := by
  rw [BitVec.toNat_ofNat]; exact Nat.mod_eq_of_lt (by omega)

/-- The table entry a grid point reads is the one at its second coordinate. -/
theorem tix_eq (i : grid0.Coords) (off : Fin 1 → Nat) (hoff : off 0 = (i 1).val)
    (inb : ∀ a, off a + S1.size a ≤ S64.size a) (h1 : 0 < S1.numel) :
    (Rect.unit (s := S64) off S1.size inb).emb (Shape.Idx.first h1) = ix1 (biOf i) := by
  funext a
  apply Fin.ext
  match a with
  | ⟨0, _⟩ =>
    show off 0 + 1 * (Shape.Idx.first h1 (0 : Fin 1)).val = (i 1).val
    have h0 : (Shape.Idx.first h1 (0 : Fin 1)).val = 0 := by
      have := (Shape.Idx.first h1 (0 : Fin 1)).isLt
      have e : S1.size (0 : Fin 1) = 1 := by decide
      omega
    rw [h0, hoff]; omega

variable (pf : pre0.Contents (Elt F))

theorem at1_eq (i : grid0.Coords) :
    pf.at 1 (Rect.unit (s := S64) ![(Scalar.indexCast (BitVec.ofNat 32 (i 1).val)).toNat] S1.size (k0_off1_inb i)) numel1_S1
      = pf 1 (ix1 (biOf i)) :=
  congrArg (pf 1) (tix_eq i _ (ofNat_toNat_lt _ (i 1).isLt) _ _)

theorem at0_eq (i : grid0.Coords) :
    pf.at 0 (Rect.unit (s := S64) ![(Scalar.indexCast (BitVec.ofNat 32 (i 1).val)).toNat] S1.size (k0_off1_inb i)) numel1_S1
      = pf 0 (ix1 (biOf i)) :=
  congrArg (pf 0) (tix_eq i _ (ofNat_toNat_lt _ (i 1).isLt) _ _)

theorem hi_eq (i : grid0.Coords) : (BitVec.ofNat 32 (i 0).val).toNat = (hiOf i).val :=
  ofNat_toNat_lt _ (by have := (i 0).isLt; have e : grid0.bound 0 = 2 := rfl; omega)

theorem tr0 (i : grid0.Coords) :
    cc0_transform_0 k0_off1_inb numel1_S1 pf i = ![(pf 1 (ix1 (biOf i))).toNat, 0, 0] := by
  unfold cc0_transform_0
  dsimp only
  rw [at1_eq]
  rfl

theorem tr1 (i : grid0.Coords) :
    cc0_transform_1 k0_off1_inb numel1_S1 pf i = ![(pf 0 (ix1 (biOf i))).toNat, 0, (hiOf i).val] := by
  unfold cc0_transform_1
  dsimp only
  rw [at0_eq, hi_eq]
  rfl

theorem tr2 (i : grid0.Coords) :
    cc0_transform_2 k0_off1_inb numel1_S1 pf i = ![(pf 0 (ix1 (biOf i))).toNat, 0, (hiOf i).val] := by
  unfold cc0_transform_2
  dsimp only
  rw [at0_eq, hi_eq]
  rfl

theorem tr3 (i : grid0.Coords) :
    cc0_transform_3 k0_off1_inb numel1_S1 pf i = ![(pf 1 (ix1 (biOf i))).toNat, 0, (hiOf i).val] := by
  unfold cc0_transform_3
  dsimp only
  rw [at1_eq, hi_eq]
  rfl

/-- When the category table's entries are below 16 and the row table's below 64, every addressed block is inside its
    array (and 32-bit elements make every transfer end word-exact). -/
theorem ok_of_bounds (h0 : ∀ k : Fin 64, (pf 0 (ix1 k)).toNat < 16) (h1 : ∀ k : Fin 64, (pf 1 (ix1 k)).toNat < 64) :
    ok0 pf := by
  refine ⟨fun i => ⟨fun a => ?_, Or.inl rfl⟩, fun i => ⟨fun a => ?_, Or.inl rfl⟩, fun i => ⟨fun a => ?_, Or.inl rfl⟩,
    fun i => ⟨fun a => ?_, Or.inl rfl⟩⟩
  · rw [tr0]
    have := h1 (biOf i)
    fin_cases a <;> simp [S1x256x1024, S64x256x1024] <;> omega
  · rw [tr1]
    have := h0 (biOf i)
    have := (hiOf i).isLt
    fin_cases a <;> simp [S1x1024x2048, S16x1024x4096] <;> omega
  · rw [tr2]
    have := h0 (biOf i)
    have := (hiOf i).isLt
    fin_cases a <;> simp [S1x1x2048, S16x1x4096] <;> omega
  · rw [tr3]
    have := h1 (biOf i)
    have := (hiOf i).isLt
    fin_cases a <;> simp [S1x256x2048, S64x256x4096] <;> omega

end IndexMaps

/-! ## The launched tables in closed form -/

/-- Row table entry k is the numeral of σ k. -/
theorem tbl1_apply (k : Fin 64) : tbl m 1 (ix1 k) = BitVec.ofNat 32 (σ (cat m) k).val := by
  rw [tbl1_eq]; exact perm_apply _ k

/-- Category table entry k is the clamped id of batch row σ k. -/
theorem tbl0_apply (k : Fin 64) : tbl m 0 (ix1 k) = clip (cat m) (ix1 (σ (cat m) k)) := by
  rw [tbl0_eq]; exact sortedCat_apply _ k

theorem tbl1_lt (k : Fin 64) : (tbl m 1 (ix1 k)).toNat < 64 := by
  rw [tbl1_apply, toNat64]; exact (σ (cat m) k).isLt

theorem tbl0_lt (k : Fin 64) : (tbl m 0 (ix1 k)).toNat < 16 := by
  rw [tbl0_apply, clip_apply]; exact clip_lt _

/-- The pipeline's side condition holds of the launched tables, whatever the category ids are: the clamp keeps the
    categories in range and an argsort lists positions. -/
theorem ok : Ok m := ok_of_bounds (tbl m) (tbl0_lt m) (tbl1_lt m)

/- From here on σ is used only through its three facts (its values in the tables, injective, surjective). -/
attribute [irreducible] σ

end Cert.Kernel.Tables

end
-- ==== Proof.Tables.lean ====
/-
  What the two prefetched tables hold. The program clamps the category ids into [0, 15], sorts the batch positions by
  clamped id (a stable argsort), and reads the clamped ids in that order. So there is a bijection σ of the 64 batch
  positions (sorted position ↦ batch row) with

      row table[k]      = the numeral of σ k,
      category table[k] = the clamped id of batch row σ k,

  and every block the pipeline addresses through the tables lies inside its array: a row below 64, a category below 16.
-/
import proofs.«416199_j2723009266339_3_alg».proof.Proof.Gen.KernelIdeal.Frame
import proofs.«416199_j2723009266339_3_alg».proof.Proof.SortWords
import Idealize.ShloMosaic.Lib.Pipeline.Value
import Idealize.ShloMosaic.Lib.StableHlo.Run

set_option maxRecDepth 16384

noncomputable section

open Idealize.ShloMosaic Idealize.ShloMosaic.TcCoe Idealize.SL.Sem Idealize.ShloMosaic.ValueIdx

namespace Cert.KernelIdeal.Tables

open Cert.KernelIdeal Cert.KernelIdeal.Gen Cert.SortWords

variable {F : FTy → Type} [FloatOps F]

/-! ## The host operations before the call, as functions of the category ids -/

/-- The ids clamped into [0, 15] as signed numbers. -/
def clip (x : IVec S64 32) : IVec S64 32 :=
  minsi (broadcastInDim S64 ![] bcast_S_S64 (constantI S_ 32 15#32))
    (maxsi (broadcastInDim S64 ![] bcast_S_S64 (constantI S_ 32 0#32)) x)

/-- The batch positions sorted by clamped id: the stable sort of the pairs (clamped id, position), positions kept. -/
def perm (x : IVec S64 32) : IVec S64 32 :=
  (Host.sort2 S64 0 comparator_i32_i32_d0 (clip x) (iotaInDim S64 32 0)).2

/-- The clamped ids read in sorted order (a negative position would be counted from the end; none is). -/
def sortedCat (x : IVec S64 32) : IVec S64 32 :=
  Host.gather gather_S64_S64x1_S64_n_0_n_n_0_1_1 (clip x)
    (broadcastInDim S64x1 ![0] bcast_S64_S64x1_0
      (select (cmpi .slt (perm x) (broadcastInDim S64 ![] bcast_S_S64 (constantI S_ 32 0#32)))
        (addi (perm x) (broadcastInDim S64 ![] bcast_S_S64 (constantI S_ 32 64#32))) (perm x)))

/-- The sort's map of positions: sorted position ↦ batch row. -/
def σ (x : IVec S64 32) : Fin 64 → Fin 64 := sortMap comparator_i32_i32_d0 (clip x) (iotaInDim S64 32 0)

theorem σ_surjective (x : IVec S64 32) : Function.Surjective (σ x) := sortMap_surjective _ _ _
theorem σ_injective (x : IVec S64 32) : Function.Injective (σ x) := sortMap_injective _ _ _

/-- A clamped id is the clamp of the id. -/
theorem clip_apply (x : IVec S64 32) (j : S64.Idx) : clip x j = IntOp.minsi 15#32 (IntOp.maxsi 0#32 (x j)) := by
  show IntOp.minsi (broadcastInDim S64 ![] bcast_S_S64 (constantI S_ 32 15#32) j)
    (IntOp.maxsi (broadcastInDim S64 ![] bcast_S_S64 (constantI S_ 32 0#32) j) (x j)) = _
  rw [broadcastInDim_apply _ bcast_S_S64 _ j ValueIdx.ix0 (fun a => a.elim0),
    broadcastInDim_apply _ bcast_S_S64 _ j ValueIdx.ix0 (fun a => a.elim0)]
  rfl

/-- Entry k of the sorted positions is the numeral of σ k. -/
theorem perm_apply (x : IVec S64 32) (k : Fin 64) : perm x (ix1 k) = BitVec.ofNat 32 (σ x k).val :=
  argsort_apply comparator_i32_i32_d0 (clip x) k

/-- The one-axis gather at position k reads its operand at the start index there, read signed and clamped to [0, 63]. -/
theorem gather_apply (y : IVec S64 32) (idx : IVec S64x1 32) (k : Fin 64) :
    Host.gather gather_S64_S64x1_S64_n_0_n_n_0_1_1 y idx (ix1 k)
      = y (ix1 ⟨min (idx (ix2 k (0 : Fin 1))).toInt.toNat 63, by omega⟩) := by
  unfold Host.gather
  refine congrArg y ?_
  funext a
  obtain rfl : a = 0 := Subsingleton.elim _ _
  refine Fin.ext ?_
  show gather_S64_S64x1_S64_n_0_n_n_0_1_1.start (ix1 k) idx 0 + gather_S64_S64x1_S64_n_0_n_n_0_1_1.batchCoord (ix1 k) 0
    + gather_S64_S64x1_S64_n_0_n_n_0_1_1.offCoord (ix1 k) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S64_S64x1_S64_n_0_n_n_0_1_1.startIndexMap from List.mem_singleton.mpr rfl)]
  have hsi : gather_S64_S64x1_S64_n_0_n_n_0_1_1.siIdx (ix1 k) ⟨List.idxOf (0 : Fin 1) gather_S64_S64x1_S64_n_0_n_n_0_1_1.startIndexMap,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]
  rfl

/-- The start index the gather reads at position k, for ANY array of positions whose entry k is the numeral of n < 64:
    such a word is not negative, so it is not counted from the end, and read signed and clamped into [0, 63] it is n. -/
theorem start_idx (pm : IVec S64 32) (k n : Fin 64) (hp : pm (ix1 k) = BitVec.ofNat 32 n.val) :
    min (broadcastInDim S64x1 ![0] bcast_S64_S64x1_0
      (select (cmpi .slt pm (broadcastInDim S64 ![] bcast_S_S64 (constantI S_ 32 0#32)))
        (addi pm (broadcastInDim S64 ![] bcast_S_S64 (constantI S_ 32 64#32))) pm) (ix2 k (0 : Fin 1))).toInt.toNat 63 = n.val := by
  rw [broadcastInDim_apply _ bcast_S64_S64x1_0 _ (ix2 k (0 : Fin 1)) (ix1 k) (fun a => match a with
    | ⟨0, _⟩ => by show k.val = if (64 : Nat) = 1 then 0 else k.val; rw [if_neg (by decide)])]
  show min (Scalar.select (IntOp.cmpi .slt (pm (ix1 k)) (broadcastInDim S64 ![] bcast_S_S64 (constantI S_ 32 0#32) (ix1 k)))
    (IntOp.addi (pm (ix1 k)) (broadcastInDim S64 ![] bcast_S_S64 (constantI S_ 32 64#32) (ix1 k))) (pm (ix1 k))).toInt.toNat 63 = _
  rw [broadcastInDim_apply _ bcast_S_S64 _ (ix1 k) ValueIdx.ix0 (fun a => a.elim0),
    broadcastInDim_apply _ bcast_S_S64 _ (ix1 k) ValueIdx.ix0 (fun a => a.elim0), hp]
  show min (Scalar.select (IntOp.cmpi .slt (BitVec.ofNat 32 n.val) 0#32)
    (IntOp.addi (BitVec.ofNat 32 n.val) 64#32) (BitVec.ofNat 32 n.val)).toInt.toNat 63 = _
  rw [sel64, clamp64]

/-- Entry k of the ids in sorted order is the clamped id of batch row σ k. -/
theorem sortedCat_apply (x : IVec S64 32) (k : Fin 64) : sortedCat x (ix1 k) = clip x (ix1 (σ x k)) := by
  unfold sortedCat
  rw [gather_apply]
  refine congrArg (clip x) (congrArg ix1 (Fin.ext ?_))
  exact start_idx (perm x) k (σ x k) (perm_apply x k)

/-! ## The tables are those functions of the launched ids -/

variable (m : (ℓ : Loc nD τ sig) → Buf (Elt F) ℓ)

/-- The category ids as launched (the program runs on one device). -/
abbrev cat : IVec S64 32 := m (((0 : Dev nD) : Thread nD τ).loc main_arg1)

set_option maxHeartbeats 1000000 in
/-- The row table is the argsort of the clamped ids. -/
theorem tbl1_eq : tbl m 1 = perm (cat m) := by
  unfold tbl
  show V m 0 main_v1 = _
  dsimp only [V]
  simp only [hostOps0, hostOps0_1, hostOps0_2, hostOps0_3, List.flatten_cons, List.flatten_nil, List.append_nil, List.cons_append, List.nil_append]
  after_results
  rfl

set_option maxHeartbeats 1000000 in
/-- The category table is the clamped ids in sorted order. -/
theorem tbl0_eq : tbl m 0 = sortedCat (cat m) := by
  unfold tbl
  show V m 0 main_v8 = _
  dsimp only [V]
  simp only [hostOps0, hostOps0_1, hostOps0_2, hostOps0_3, List.flatten_cons, List.flatten_nil, List.append_nil, List.cons_append, List.nil_append]
  after_results
  rfl

/-! ## The index maps at any contents of the tables, and the pipeline's side condition

A grid point (h, k) — h the column half, k the position in sorted order — addresses input block (row table[k], 0, 0),
weight and bias blocks (category table[k], 0, h) and output block (row table[k], 0, h). -/

section IndexMaps

/-- A grid point's two coordinates, as numbers below 2 and below 64. -/
def hiOf (i : grid0.Coords) : Fin 2 := ⟨(i 0).val, (i 0).isLt⟩
def biOf (i : grid0.Coords) : Fin 64 := ⟨(i 1).val, (i 1).isLt⟩

/-- A word that is the numeral of a number below 64 reads as that number. -/
theorem ofNat_toNat_lt (n : Nat) (h : n < 64) : (BitVec.ofNat 32 n).toNat = n := by
  rw [BitVec.toNat_ofNat]; exact Nat.mod_eq_of_lt (by omega)

/-- The table entry a grid point reads is the one at its second coordinate. -/
theorem tix_eq (i : grid0.Coords) (off : Fin 1 → Nat) (hoff : off 0 = (i 1).val)
    (inb : ∀ a, off a + S1.size a ≤ S64.size a) (h1 : 0 < S1.numel) :
    (Rect.unit (s := S64) off S1.size inb).emb (Shape.Idx.first h1) = ix1 (biOf i) := by
  funext a
  apply Fin.ext
  match a with
  | ⟨0, _⟩ =>
    show off 0 + 1 * (Shape.Idx.first h1 (0 : Fin 1)).val = (i 1).val
    have h0 : (Shape.Idx.first h1 (0 : Fin 1)).val = 0 := by
      have := (Shape.Idx.first h1 (0 : Fin 1)).isLt
      have e : S1.size (0 : Fin 1) = 1 := by decide
      omega
    rw [h0, hoff]; omega

variable (pf : pre0.Contents (Elt F))

theorem at1_eq (i : grid0.Coords) :
    pf.at 1 (Rect.unit (s := S64) ![(Scalar.indexCast (BitVec.ofNat 32 (i 1).val)).toNat] S1.size (k0_off1_inb i)) numel1_S1
      = pf 1 (ix1 (biOf i)) :=
  congrArg (pf 1) (tix_eq i _ (ofNat_toNat_lt _ (i 1).isLt) _ _)

theorem at0_eq (i : grid0.Coords) :
    pf.at 0 (Rect.unit (s := S64) ![(Scalar.indexCast (BitVec.ofNat 32 (i 1).val)).toNat] S1.size (k0_off1_inb i)) numel1_S1
      = pf 0 (ix1 (biOf i)) :=
  congrArg (pf 0) (tix_eq i _ (ofNat_toNat_lt _ (i 1).isLt) _ _)

theorem hi_eq (i : grid0.Coords) : (BitVec.ofNat 32 (i 0).val).toNat = (hiOf i).val :=
  ofNat_toNat_lt _ (by have := (i 0).isLt; have e : grid0.bound 0 = 2 := rfl; omega)

theorem tr0 (i : grid0.Coords) :
    cc0_transform_0 k0_off1_inb numel1_S1 pf i = ![(pf 1 (ix1 (biOf i))).toNat, 0, 0] := by
  unfold cc0_transform_0
  dsimp only
  rw [at1_eq]
  rfl

theorem tr1 (i : grid0.Coords) :
    cc0_transform_1 k0_off1_inb numel1_S1 pf i = ![(pf 0 (ix1 (biOf i))).toNat, 0, (hiOf i).val] := by
  unfold cc0_transform_1
  dsimp only
  rw [at0_eq, hi_eq]
  rfl

theorem tr2 (i : grid0.Coords) :
    cc0_transform_2 k0_off1_inb numel1_S1 pf i = ![(pf 0 (ix1 (biOf i))).toNat, 0, (hiOf i).val] := by
  unfold cc0_transform_2
  dsimp only
  rw [at0_eq, hi_eq]
  rfl

theorem tr3 (i : grid0.Coords) :
    cc0_transform_3 k0_off1_inb numel1_S1 pf i = ![(pf 1 (ix1 (biOf i))).toNat, 0, (hiOf i).val] := by
  unfold cc0_transform_3
  dsimp only
  rw [at1_eq, hi_eq]
  rfl

/-- When the category table's entries are below 16 and the row table's below 64, every addressed block is inside its
    array (and 32-bit elements make every transfer end word-exact). -/
theorem ok_of_bounds (h0 : ∀ k : Fin 64, (pf 0 (ix1 k)).toNat < 16) (h1 : ∀ k : Fin 64, (pf 1 (ix1 k)).toNat < 64) :
    ok0 pf := by
  refine ⟨fun i => ⟨fun a => ?_, Or.inl rfl⟩, fun i => ⟨fun a => ?_, Or.inl rfl⟩, fun i => ⟨fun a => ?_, Or.inl rfl⟩,
    fun i => ⟨fun a => ?_, Or.inl rfl⟩⟩
  · rw [tr0]
    have := h1 (biOf i)
    fin_cases a <;> simp [S1x256x1024, S64x256x1024] <;> omega
  · rw [tr1]
    have := h0 (biOf i)
    have := (hiOf i).isLt
    fin_cases a <;> simp [S1x1024x2048, S16x1024x4096] <;> omega
  · rw [tr2]
    have := h0 (biOf i)
    have := (hiOf i).isLt
    fin_cases a <;> simp [S1x1x2048, S16x1x4096] <;> omega
  · rw [tr3]
    have := h1 (biOf i)
    have := (hiOf i).isLt
    fin_cases a <;> simp [S1x256x2048, S64x256x4096] <;> omega

end IndexMaps

/-! ## The launched tables in closed form -/

/-- Row table entry k is the numeral of σ k. -/
theorem tbl1_apply (k : Fin 64) : tbl m 1 (ix1 k) = BitVec.ofNat 32 (σ (cat m) k).val := by
  rw [tbl1_eq]; exact perm_apply _ k

/-- Category table entry k is the clamped id of batch row σ k. -/
theorem tbl0_apply (k : Fin 64) : tbl m 0 (ix1 k) = clip (cat m) (ix1 (σ (cat m) k)) := by
  rw [tbl0_eq]; exact sortedCat_apply _ k

theorem tbl1_lt (k : Fin 64) : (tbl m 1 (ix1 k)).toNat < 64 := by
  rw [tbl1_apply, toNat64]; exact (σ (cat m) k).isLt

theorem tbl0_lt (k : Fin 64) : (tbl m 0 (ix1 k)).toNat < 16 := by
  rw [tbl0_apply, clip_apply]; exact clip_lt _

/-- The pipeline's side condition holds of the launched tables, whatever the category ids are: the clamp keeps the
    categories in range and an argsort lists positions. -/
theorem ok : Ok m := ok_of_bounds (tbl m) (tbl0_lt m) (tbl1_lt m)

/- From here on σ is used only through its three facts (its values in the tables, injective, surjective). -/
attribute [irreducible] σ

end Cert.KernelIdeal.Tables

end
-- ==== Proof.KOut.lean ====
/-
  What one step of the kernel leaves in its output block: the product of the step's input block with the step's weight
  block, plus the step's bias row on every row — the one store's value as a function of the three blocks it loaded.
-/
import proofs.«416199_j2723009266339_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.KOut

open Cert.KernelIdeal Cert.KernelIdeal.Gen

variable {F : FTy → Type} [FloatOps F]

theorem hz3 : (![0, 0, 0] : Fin 3 → Nat) = fun _ => 0 := funext fun a => by fin_cases a <;> rfl

/-- The body's one store covers the output block, so the block ends at the store's value: the block product plus the
    bias row, of the three blocks the body loaded whole. -/
theorem out_eq (c : Dev nD) (i : grid0.Coords) (arg4 : Memref sig .tc .vmem S1x256x1024 .f32) (harg4 : arg4.IsWhole)
    (arg5 : Memref sig .tc .vmem S1x1024x2048 .f32) (harg5 : arg5.IsWhole)
    (arg6 : Memref sig .tc .vmem S1x1x2048 .f32) (harg6 : arg6.IsWhole)
    (arg7 : Memref sig .tc .vmem S1x256x2048 .f32) (harg7 : arg7.IsWhole)
    (x0 : Vec F S1x256x1024 .f32) (x1 : Vec F S1x1024x2048 .f32) (x2 : Vec F S1x1x2048 .f32)
    (xt0 : TbBuf0 (F := F) c tbM0_0) (xt1 : TbBuf0 (F := F) c tbM0_1) :
    out0_A_3 c i arg4 harg4 arg5 harg5 arg6 harg6 arg7 harg7 x0 x1 x2 xt0 xt1 = k0_pay1 x0 x1 x2 := by
  unfold out0_A_3
  rw [View.read_writes_eq_canon _ _ _ (cover0_A_3 c i arg4 harg4 arg5 harg5 arg6 harg6 arg7 harg7 x0 x1 x2 xt0 xt1)]
  unfold kernelRun0_A
  dsimp only
  sl_unfold_words
  rw [View.canon_unit_zero hz3]
  simp only [View.readAt_eq_ld, harg4.read_unread, harg5.read_unread, harg6.read_unread,
    View.ld_unit_zero (S := S1x256x1024) hz3, View.ld_unit_zero (S := S1x1024x2048) hz3,
    View.ld_unit_zero (S := S1x1x2048) hz3]

end Cert.KernelIdeal.KOut

end
-- ==== Proof.LibDotSum.lean ====
/-
  A matrix product with ONE contracted axis, read at an output index as a sum over that axis's coordinate.
  The library states the product's value as a sum over the dimension numbers' contraction index set of the operands at
  two computed operand indices. For the two patterns below the contraction index is one coordinate `k`, and the operand
  indices are (r, k), (k, c) for rows × columns, and (k, r), (k, c) when the left operand is contracted over its rows.
  Each is stated for any extents and any dimension-numbers record with those axis lists.
-/
import Idealize.ShloMosaic.PureOps.Ideal.Laws
import Idealize.ShloMosaic.Lib.ValueIdx

noncomputable section

namespace Cert.Lib

open Idealize.ShloMosaic Idealize.ShloMosaic.ValueIdx

variable {M K N : Nat}

/-! ## Rows × columns: left axis 1 against right axis 0 -/

/-- The dimension numbers of an [M, K] × [K, N] product. -/
def rc (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

theorem rc_lhs_0 (i : (⟨2, ![M, N]⟩ : Shape).Idx) (q : (rc wf).contr.Idx) : ((rc wf).lhsIdx i q 0).val = (i 0).val := by
  unfold DotDims.lhsIdx
  rw [dif_neg (show ¬(0 : Fin (⟨2, ![M, K]⟩ : Shape).rank) ∈ (rc wf).lhsBatch by simp [rc]),
    dif_pos (show (0 : Fin (⟨2, ![M, K]⟩ : Shape).rank) ∈ (rc wf).lhsNonContracting by simp [rc])]
  rfl
theorem rc_lhs_1 (i : (⟨2, ![M, N]⟩ : Shape).Idx) (q : (rc wf).contr.Idx) :
    ((rc wf).lhsIdx i q 1).val = (q ⟨0, Nat.one_pos⟩).val :=
  (rc wf).lhsIdx_val_of_single rfl i q
theorem rc_rhs_0 (i : (⟨2, ![M, N]⟩ : Shape).Idx) (q : (rc wf).contr.Idx) :
    ((rc wf).rhsIdx i q 0).val = (q ⟨0, Nat.one_pos⟩).val :=
  (rc wf).rhsIdx_val_of_single rfl i q
theorem rc_rhs_1 (i : (⟨2, ![M, N]⟩ : Shape).Idx) (q : (rc wf).contr.Idx) : ((rc wf).rhsIdx i q 1).val = (i 1).val := by
  unfold DotDims.rhsIdx
  rw [dif_neg (show ¬(1 : Fin (⟨2, ![K, N]⟩ : Shape).rank) ∈ (rc wf).rhsBatch by simp [rc]),
    dif_pos (show (1 : Fin (⟨2, ![K, N]⟩ : Shape).rank) ∈ (rc wf).rhsNonContracting by simp [rc])]
  rfl

/-- The contraction sum of a rows × columns product at (r, c) runs over the pairs (r, k), (k, c). -/
theorem sum_rc {β : Type} [AddCommMonoid β] (f : (⟨2, ![M, K]⟩ : Shape).Idx → (⟨2, ![K, N]⟩ : Shape).Idx → β)
    (r : Fin M) (c : Fin N) :
    ∑ k : (rc wf).contr.Idx, f ((rc wf).lhsIdx (ix2 r c) k) ((rc wf).rhsIdx (ix2 r c) k)
      = ∑ k : Fin K, f (ix2 r k) (ix2 k c) := by
  rw [← Equiv.sum_comp (contrEquiv1 (rc wf) K rfl rfl).symm]
  refine Finset.sum_congr rfl fun k _ => ?_
  have hk := contrEquiv1_symm_val (rc wf) K rfl rfl k
  have el : (rc wf).lhsIdx (ix2 r c) ((contrEquiv1 (rc wf) K rfl rfl).symm k) = ix2 r k := funext fun a => Fin.ext (by
    match a with
    | ⟨0, _⟩ => exact rc_lhs_0 wf _ _
    | ⟨1, _⟩ => exact (rc_lhs_1 wf _ _).trans hk)
  have er : (rc wf).rhsIdx (ix2 r c) ((contrEquiv1 (rc wf) K rfl rfl).symm k) = ix2 k c := funext fun a => Fin.ext (by
    match a with
    | ⟨0, _⟩ => exact (rc_rhs_0 wf _ _).trans hk
    | ⟨1, _⟩ => exact rc_rhs_1 wf _ _)
  rw [el, er]

/-- The same for any record with those axis lists. -/
theorem sum_contr_rc {β : Type} [AddCommMonoid β] (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (f : (⟨2, ![M, K]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 r k) (ix2 k c) := by
  obtain ⟨lc, rc', ln, rn, lb, rb, wf'⟩ := d
  simp only at hlc hrc hln hrn hlb hrb
  subst hlc hrc hln hrn hlb hrb
  exact sum_rc wf' f r c

/-! ## Left operand contracted over its rows: left axis 0 against right axis 0 -/

/-- The dimension numbers of a [K, M]ᵀ × [K, N] product. -/
def cc (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ := ⟨[0], [0], [1], [1], [], [], wf⟩

variable (wg : DotDims.WF ⟨2, ![K, M]⟩ ⟨2, ![K, N]⟩ ⟨2, ![M, N]⟩ [0] [0] [1] [1] [] [])

theorem cc_lhs_0 (i : (⟨2, ![M, N]⟩ : Shape).Idx) (q : (cc wg).contr.Idx) :
    ((cc wg).lhsIdx i q 0).val = (q ⟨0, Nat.one_pos⟩).val :=
  (cc wg).lhsIdx_val_of_single rfl i q
theorem cc_lhs_1 (i : (⟨2, ![M, N]⟩ : Shape).Idx) (q : (cc wg).contr.Idx) : ((cc wg).lhsIdx i q 1).val = (i 0).val := by
  unfold DotDims.lhsIdx
  rw [dif_neg (show ¬(1 : Fin (⟨2, ![K, M]⟩ : Shape).rank) ∈ (cc wg).lhsBatch by simp [cc]),
    dif_pos (show (1 : Fin (⟨2, ![K, M]⟩ : Shape).rank) ∈ (cc wg).lhsNonContracting by simp [cc])]
  rfl
theorem cc_rhs_0 (i : (⟨2, ![M, N]⟩ : Shape).Idx) (q : (cc wg).contr.Idx) :
    ((cc wg).rhsIdx i q 0).val = (q ⟨0, Nat.one_pos⟩).val :=
  (cc wg).rhsIdx_val_of_single rfl i q
theorem cc_rhs_1 (i : (⟨2, ![M, N]⟩ : Shape).Idx) (q : (cc wg).contr.Idx) : ((cc wg).rhsIdx i q 1).val = (i 1).val := by
  unfold DotDims.rhsIdx
  rw [dif_neg (show ¬(1 : Fin (⟨2, ![K, N]⟩ : Shape).rank) ∈ (cc wg).rhsBatch by simp [cc]),
    dif_pos (show (1 : Fin (⟨2, ![K, N]⟩ : Shape).rank) ∈ (cc wg).rhsNonContracting by simp [cc])]
  rfl

/-- The contraction sum at (r, c) runs over the pairs (k, r), (k, c). -/
theorem sum_cc {β : Type} [AddCommMonoid β] (f : (⟨2, ![K, M]⟩ : Shape).Idx → (⟨2, ![K, N]⟩ : Shape).Idx → β)
    (r : Fin M) (c : Fin N) :
    ∑ k : (cc wg).contr.Idx, f ((cc wg).lhsIdx (ix2 r c) k) ((cc wg).rhsIdx (ix2 r c) k)
      = ∑ k : Fin K, f (ix2 k r) (ix2 k c) := by
  rw [← Equiv.sum_comp (contrEquiv1 (cc wg) K rfl rfl).symm]
  refine Finset.sum_congr rfl fun k _ => ?_
  have hk := contrEquiv1_symm_val (cc wg) K rfl rfl k
  have el : (cc wg).lhsIdx (ix2 r c) ((contrEquiv1 (cc wg) K rfl rfl).symm k) = ix2 k r := funext fun a => Fin.ext (by
    match a with
    | ⟨0, _⟩ => exact (cc_lhs_0 wg _ _).trans hk
    | ⟨1, _⟩ => exact cc_lhs_1 wg _ _)
  have er : (cc wg).rhsIdx (ix2 r c) ((contrEquiv1 (cc wg) K rfl rfl).symm k) = ix2 k c := funext fun a => Fin.ext (by
    match a with
    | ⟨0, _⟩ => exact (cc_rhs_0 wg _ _).trans hk
    | ⟨1, _⟩ => exact cc_rhs_1 wg _ _)
  rw [el, er]

/-- The same for any record with those axis lists. -/
theorem sum_contr_cc {β : Type} [AddCommMonoid β] (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = [])
    (f : (⟨2, ![K, M]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 k r) (ix2 k c) := by
  obtain ⟨lc, rc', ln, rn, lb, rb, wf'⟩ := d
  simp only at hlc hrc hln hrn hlb hrb
  subst hlc hrc hln hrn hlb hrb
  exact sum_cc wf' f r c

/-! ## The products themselves, at an output index -/

/-- A rows × columns block product into the zero accumulator, at (r, c): the sum over k of A (r, k) · B (k, c). -/
theorem matmul_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 r k) * B (ix2 k c) := by
  simp only [matmul]
  rw [Ideal.matmul_constant_zero_apply]
  exact sum_contr_rc d hlc hrc hln hrn hlb hrb (fun a b => A a * B b) r c

/-- A block product whose left operand is contracted over its rows, into the zero accumulator, at (r, c): the sum over
    k of A (k, r) · B (k, c). -/
theorem matmul_cc_apply {φ₁ φ₂ : FTy} (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = []) (prec : Option ContractPrecision)
    (A : FVec Ideal ⟨2, ![K, M]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 k r) * B (ix2 k c) := by
  simp only [matmul]
  rw [Ideal.matmul_constant_zero_apply]
  exact sum_contr_cc d hlc hrc hln hrn hlb hrb (fun a b => A a * B b) r c

/-- The host's rows × columns product at (r, c): the same sum. -/
theorem dotGeneral_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    Host.dotGeneral d prec A B (ix2 r c) = ∑ k : Fin K, A (ix2 r k) * B (ix2 k c) := by
  simp only [Host.dotGeneral]
  rw [Ideal.dotGeneral_apply]
  exact sum_contr_rc d hlc hrc hln hrn hlb hrb (fun a b => A a * B b) r c

end Cert.Lib

end
-- ==== Proof.KPay.lean ====
/-
  One step's output block, element by element. The body loads an input block [1, 256, 1024], a weight block
  [1, 1024, 2048] and a bias block [1, 1, 2048], drops the unit axes, narrows both matrix operands (no change on the
  extended reals), multiplies them into a zero accumulator, adds the bias row to every row and puts the unit axis back:

      block[u, r, q] = Σ_{k < 1024} input[0, r, k] · weight[0, k, q]  +  bias[0, 0, q].
-/
import proofs.«416199_j2723009266339_3_alg».proof.Proof.Gen.KernelIdeal.Skeleton
import proofs.«416199_j2723009266339_3_alg».proof.Proof.LibDotSum
import Idealize.ShloMosaic.Lib.Pipeline.Value
import Idealize.ShloMosaic.Lib.ValueIdx
import Idealize.ShloMosaic.Lib.ValueLayout

noncomputable section

open scoped BigOperators

namespace Cert.KernelIdeal.KPay

open Cert.KernelIdeal Cert.KernelIdeal.Gen Cert.Lib
open Idealize.ShloMosaic Idealize.ShloMosaic.ValueIdx

/-- A [1, 1, a] array cast to [a] reads, at i, the operand at (0, 0, i): the two row-major positions are equal. -/
theorem shapeCast_11a_a_apply {α : Type} {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    first | rfl | omega)

/-- The stored block at [u, r, q]: the row of the input block against the column of the weight block, plus the bias. -/
theorem pay_apply (x0 : Vec Ideal S1x256x1024 .f32) (x1 : Vec Ideal S1x1024x2048 .f32) (x2 : Vec Ideal S1x1x2048 .f32)
    (u : Fin 1) (r : Fin 256) (q : Fin 2048) :
    k0_pay1 x0 x1 x2 (ix3 u r q)
      = (∑ k : Fin 1024, x0 (ix3 (0 : Fin 1) r k) * x1 (ix3 (0 : Fin 1) k q)) + x2 (ix3 (0 : Fin 1) (0 : Fin 1) q) := by
  unfold k0_pay1
  rw [shapeCast_ab_1ab_apply, addf_apply,
    matmul_rc_apply dot_S256x1024_S1024x2048_S256x2048_1_0_0_1_n_n rfl rfl rfl rfl rfl rfl,
    broadcastTo_1b_ab_apply, shapeCast_a_1a_apply, shapeCast_11a_a_apply]
  refine congrArg (· + x2 (ix3 (0 : Fin 1) (0 : Fin 1) q)) (Finset.sum_congr rfl fun k _ => ?_)
  rw [truncf_apply, truncf_apply, shapeCast_1ab_ab_apply, shapeCast_1ab_ab_apply]

end Cert.KernelIdeal.KPay

end
-- ==== Proof.Spec.lean ====
/-
  The mathematics both programs compute. A batch row `p` belongs to one of sixteen categories, `c p`; its output row is
  the product of its 256 × 1024 input with that category's 1024 × 4096 weight matrix, plus that category's bias row:

      out[p, r, h] = Σ_{k < 1024} x[p, r, k] · W[c p, k, h]  +  bias[c p, h]

  on the extended reals. Both programs are shown to end at this one function of the argument arrays, each for its own way
  of finding the category (a gather of whole matrices by category id on one side; batch rows visited in category order,
  one column half of one row per step, on the other).
-/
import Idealize.ShloMosaic.PureOps.Ideal
import Idealize.ShloMosaic.Lib.ValueIdx

noncomputable section

open scoped BigOperators

namespace Cert.CatLinear

open Idealize.ShloMosaic Idealize.ShloMosaic.ValueIdx

/-- The input, batch × sequence × input feature. -/
abbrev SX : Shape := ⟨3, ![64, 256, 1024]⟩
/-- The weights, category × input feature × hidden feature. -/
abbrev SW : Shape := ⟨3, ![16, 1024, 4096]⟩
/-- The biases, category × hidden feature. -/
abbrev SB : Shape := ⟨2, ![16, 4096]⟩
/-- The output, batch × sequence × hidden feature. -/
abbrev SO : Shape := ⟨3, ![64, 256, 4096]⟩

/-- One output element from its three coordinates: the row of `x` against the column of the category's weight matrix,
    plus the category's bias. -/
def at3 (c : Fin 64 → Fin 16) (x : FVec Ideal SX .f32) (W : FVec Ideal SW .f32) (b : FVec Ideal SB .f32)
    (p : Fin 64) (r : Fin 256) (h : Fin 4096) : EReal :=
  (∑ k : Fin 1024, x (ix3 p r k) * W (ix3 (c p) k h)) + b (ix2 (c p) h)

/-- The whole output array under the category assignment `c`. -/
def G (c : Fin 64 → Fin 16) (x : FVec Ideal SX .f32) (W : FVec Ideal SW .f32) (b : FVec Ideal SB .f32) :
    FVec Ideal SO .f32 :=
  fun i => at3 c x W b (i 0) (i 1) (i 2)

theorem G_apply (c : Fin 64 → Fin 16) (x : FVec Ideal SX .f32) (W : FVec Ideal SW .f32) (b : FVec Ideal SB .f32)
    (p : Fin 64) (r : Fin 256) (h : Fin 4096) : G c x W b (ix3 p r h) = at3 c x W b p r h := rfl

/-- The output depends on the category assignment only through its values. -/
theorem G_congr {c c' : Fin 64 → Fin 16} (hc : ∀ p, c p = c' p) (x : FVec Ideal SX .f32) (W : FVec Ideal SW .f32)
    (b : FVec Ideal SB .f32) : G c x W b = G c' x W b := by
  rw [show c = c' from funext hc]

end Cert.CatLinear

end
-- ==== Proof.KValue.lean ====
/-
  The array the kernel leaves. Step (h, k) of the grid — h the column half, k the position in category order — works on
  batch row p = σ k: it reads that row's input block, the weight and bias blocks of the row's category for column half h,
  and writes the product plus bias into columns [2048·h, 2048·h + 2048) of output row p. That is exactly the
  specification read through the step's output block. Consecutive steps write different blocks (σ is injective), so
  every step's block is written back; σ is onto, so the blocks cover the whole output array, which therefore ends at
  the specification.
-/
import proofs.«416199_j2723009266339_3_alg».proof.Proof.Tables
import proofs.«416199_j2723009266339_3_alg».proof.Proof.KOut
import proofs.«416199_j2723009266339_3_alg».proof.Proof.KPay
import proofs.«416199_j2723009266339_3_alg».proof.Proof.Spec
import Idealize.ShloMosaic.Lib.Pipeline.Value
import Idealize.ShloMosaic.Lib.StableHlo.Run

set_option maxRecDepth 16384

noncomputable section

open scoped BigOperators

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.Tables Cert.KernelIdeal.KOut Cert.KernelIdeal.KPay
open Cert.SortWords Cert.CatLinear

/-! ## The pipeline at any admissible contents of the tables -/

section Generic

variable (a : (pcfg0 (F := Ideal)).Adm)

/-- The position in category order advances (cyclically) from one step to the next: the steps run row-major, the
    position the fastest coordinate. -/
theorem bi_succ (t : Fin grid0.N) (h : t.val + 1 < grid0.N) :
    biOf (grid0.coords ⟨t.val + 1, h⟩) ≠ biOf (grid0.coords t) := by
  intro e
  have e' : (t.val + 1) / grid0.stride 1 % grid0.bound 1 = t.val / grid0.stride 1 % grid0.bound 1 := congrArg Fin.val e
  have hs : grid0.stride 1 = 1 := by decide
  have hb : grid0.bound 1 = 64 := rfl
  rw [hs, hb] at e'
  omega

theorem index3 (t : Fin (cfg0 a).N) : ((cfg0 a).win 3).index t = cc0_transform_3 k0_off1_inb numel1_S1 a.1 (grid0.coords t) := rfl

/-- Every step writes its output block back: the next step's block is another one, the row table being injective. -/
theorem flush_all (pf : pre0.Contents (Elt Ideal)) (hpf : a.1 = pf)
    (hinj : Function.Injective fun k : Fin 64 => (pf 1 (ix1 k)).toNat) (t : Fin (cfg0 a).N) :
    ((cfg0 a).win 3).flush t = true := by
  subst hpf
  unfold Pipeline.Window.flush
  rw [show ((cfg0 a).win 3).isOut = true from rfl, Bool.true_and, Bool.or_eq_true, decide_eq_true_eq, decide_eq_true_eq]
  have hNeq : (cfg0 a).N = grid0.N := rfl
  by_cases hN : t.val + 1 = grid0.N
  · exact Or.inl hN
  · have hlt : t.val + 1 < grid0.N := by have := t.isLt; omega
    refine Or.inr ⟨hlt, fun e => ?_⟩
    have e0 := congrFun e ⟨0, (by decide : 0 < 3)⟩
    rw [index3, index3, tr3, tr3] at e0
    exact bi_succ t hlt (hinj e0)

/-- Window 0's block at step t sits in its array at the block's offset: coordinate by coordinate, offset plus the
    coordinate inside the block. -/
theorem emb0 (pf : pre0.Contents (Elt Ideal)) (hpf : a.1 = pf) (t : Fin (cfg0 a).N) (x : S1x256x1024.Idx) (k : S64x256x1024.Idx)
    (hk0 : (k 0).val = (pf 1 (ix1 (biOf (grid0.coords t)))).toNat) (hk1 : (k 1).val = (x 1).val)
    (hk2 : (k 2).val = (x 2).val) :
    ((((cfg0 a).win 0).blk t).view.emb x : S64x256x1024.Idx) = k := by
  subst hpf
  have hx0 : (x 0).val = 0 := by have := (x 0).isLt; have e : S1x256x1024.size 0 = 1 := rfl; omega
  funext ax
  apply Fin.ext
  match ax with
  | ⟨0, _⟩ =>
    show cc0_transform_0 k0_off1_inb numel1_S1 a.1 (grid0.coords t) (0 : Fin 3) * 1 + 1 * (x 0).val = (k 0).val
    rw [tr0, hk0, hx0]; simp
  | ⟨1, _⟩ =>
    show cc0_transform_0 k0_off1_inb numel1_S1 a.1 (grid0.coords t) (1 : Fin 3) * 256 + 1 * (x 1).val = (k 1).val
    rw [tr0, hk1]; simp
  | ⟨2, _⟩ =>
    show cc0_transform_0 k0_off1_inb numel1_S1 a.1 (grid0.coords t) (2 : Fin 3) * 1024 + 1 * (x 2).val = (k 2).val
    rw [tr0, hk2]; simp

/-- So the block read off an array `X` is `X` at that place. -/
theorem read_blk0 (pf : pre0.Contents (Elt Ideal)) (hpf : a.1 = pf) (t : Fin (cfg0 a).N) (X : S64x256x1024.Idx → Elt Ideal .f32) (x : S1x256x1024.Idx) (k : S64x256x1024.Idx)
    (hk0 : (k 0).val = (pf 1 (ix1 (biOf (grid0.coords t)))).toNat) (hk1 : (k 1).val = (x 1).val)
    (hk2 : (k 2).val = (x 2).val) :
    ((((cfg0 a).win 0).blk t).view.read (Elt Ideal) X : Vec Ideal S1x256x1024 .f32) x = X k := by
  show X ((((cfg0 a).win 0).blk t).view.emb x) = X k
  exact congrArg X (emb0 a pf hpf t x k hk0 hk1 hk2)

/-- Window 1's block at step t sits in its array at the block's offset: coordinate by coordinate, offset plus the
    coordinate inside the block. -/
theorem emb1 (pf : pre0.Contents (Elt Ideal)) (hpf : a.1 = pf) (t : Fin (cfg0 a).N) (x : S1x1024x2048.Idx) (k : S16x1024x4096.Idx)
    (hk0 : (k 0).val = (pf 0 (ix1 (biOf (grid0.coords t)))).toNat) (hk1 : (k 1).val = (x 1).val)
    (hk2 : (k 2).val = (hiOf (grid0.coords t)).val * 2048 + (x 2).val) :
    ((((cfg0 a).win 1).blk t).view.emb x : S16x1024x4096.Idx) = k := by
  subst hpf
  have hx0 : (x 0).val = 0 := by have := (x 0).isLt; have e : S1x1024x2048.size 0 = 1 := rfl; omega
  funext ax
  apply Fin.ext
  match ax with
  | ⟨0, _⟩ =>
    show cc0_transform_1 k0_off1_inb numel1_S1 a.1 (grid0.coords t) (0 : Fin 3) * 1 + 1 * (x 0).val = (k 0).val
    rw [tr1, hk0, hx0]; simp
  | ⟨1, _⟩ =>
    show cc0_transform_1 k0_off1_inb numel1_S1 a.1 (grid0.coords t) (1 : Fin 3) * 1024 + 1 * (x 1).val = (k 1).val
    rw [tr1, hk1]; simp
  | ⟨2, _⟩ =>
    show cc0_transform_1 k0_off1_inb numel1_S1 a.1 (grid0.coords t) (2 : Fin 3) * 2048 + 1 * (x 2).val = (k 2).val
    rw [tr1, hk2]; simp

/-- So the block read off an array `X` is `X` at that place. -/
theorem read_blk1 (pf : pre0.Contents (Elt Ideal)) (hpf : a.1 = pf) (t : Fin (cfg0 a).N) (X : S16x1024x4096.Idx → Elt Ideal .f32) (x : S1x1024x2048.Idx) (k : S16x1024x4096.Idx)
    (hk0 : (k 0).val = (pf 0 (ix1 (biOf (grid0.coords t)))).toNat) (hk1 : (k 1).val = (x 1).val)
    (hk2 : (k 2).val = (hiOf (grid0.coords t)).val * 2048 + (x 2).val) :
    ((((cfg0 a).win 1).blk t).view.read (Elt Ideal) X : Vec Ideal S1x1024x2048 .f32) x = X k := by
  show X ((((cfg0 a).win 1).blk t).view.emb x) = X k
  exact congrArg X (emb1 a pf hpf t x k hk0 hk1 hk2)

/-- Window 2's block at step t sits in its array at the block's offset: coordinate by coordinate, offset plus the
    coordinate inside the block. -/
theorem emb2 (pf : pre0.Contents (Elt Ideal)) (hpf : a.1 = pf) (t : Fin (cfg0 a).N) (x : S1x1x2048.Idx) (k : S16x1x4096.Idx)
    (hk0 : (k 0).val = (pf 0 (ix1 (biOf (grid0.coords t)))).toNat) (hk1 : (k 1).val = (x 1).val)
    (hk2 : (k 2).val = (hiOf (grid0.coords t)).val * 2048 + (x 2).val) :
    ((((cfg0 a).win 2).blk t).view.emb x : S16x1x4096.Idx) = k := by
  subst hpf
  have hx0 : (x 0).val = 0 := by have := (x 0).isLt; have e : S1x1x2048.size 0 = 1 := rfl; omega
  funext ax
  apply Fin.ext
  match ax with
  | ⟨0, _⟩ =>
    show cc0_transform_2 k0_off1_inb numel1_S1 a.1 (grid0.coords t) (0 : Fin 3) * 1 + 1 * (x 0).val = (k 0).val
    rw [tr2, hk0, hx0]; simp
  | ⟨1, _⟩ =>
    show cc0_transform_2 k0_off1_inb numel1_S1 a.1 (grid0.coords t) (1 : Fin 3) * 1 + 1 * (x 1).val = (k 1).val
    rw [tr2, hk1]; simp
  | ⟨2, _⟩ =>
    show cc0_transform_2 k0_off1_inb numel1_S1 a.1 (grid0.coords t) (2 : Fin 3) * 2048 + 1 * (x 2).val = (k 2).val
    rw [tr2, hk2]; simp

/-- So the block read off an array `X` is `X` at that place. -/
theorem read_blk2 (pf : pre0.Contents (Elt Ideal)) (hpf : a.1 = pf) (t : Fin (cfg0 a).N) (X : S16x1x4096.Idx → Elt Ideal .f32) (x : S1x1x2048.Idx) (k : S16x1x4096.Idx)
    (hk0 : (k 0).val = (pf 0 (ix1 (biOf (grid0.coords t)))).toNat) (hk1 : (k 1).val = (x 1).val)
    (hk2 : (k 2).val = (hiOf (grid0.coords t)).val * 2048 + (x 2).val) :
    ((((cfg0 a).win 2).blk t).view.read (Elt Ideal) X : Vec Ideal S1x1x2048 .f32) x = X k := by
  show X ((((cfg0 a).win 2).blk t).view.emb x) = X k
  exact congrArg X (emb2 a pf hpf t x k hk0 hk1 hk2)

/-- Window 3's block at step t sits in its array at the block's offset: coordinate by coordinate, offset plus the
    coordinate inside the block. -/
theorem emb3 (pf : pre0.Contents (Elt Ideal)) (hpf : a.1 = pf) (t : Fin (cfg0 a).N) (x : S1x256x2048.Idx) (k : S64x256x4096.Idx)
    (hk0 : (k 0).val = (pf 1 (ix1 (biOf (grid0.coords t)))).toNat) (hk1 : (k 1).val = (x 1).val)
    (hk2 : (k 2).val = (hiOf (grid0.coords t)).val * 2048 + (x 2).val) :
    ((((cfg0 a).win 3).blk t).view.emb x : S64x256x4096.Idx) = k := by
  subst hpf
  have hx0 : (x 0).val = 0 := by have := (x 0).isLt; have e : S1x256x2048.size 0 = 1 := rfl; omega
  funext ax
  apply Fin.ext
  match ax with
  | ⟨0, _⟩ =>
    show cc0_transform_3 k0_off1_inb numel1_S1 a.1 (grid0.coords t) (0 : Fin 3) * 1 + 1 * (x 0).val = (k 0).val
    rw [tr3, hk0, hx0]; simp
  | ⟨1, _⟩ =>
    show cc0_transform_3 k0_off1_inb numel1_S1 a.1 (grid0.coords t) (1 : Fin 3) * 256 + 1 * (x 1).val = (k 1).val
    rw [tr3, hk1]; simp
  | ⟨2, _⟩ =>
    show cc0_transform_3 k0_off1_inb numel1_S1 a.1 (grid0.coords t) (2 : Fin 3) * 2048 + 1 * (x 2).val = (k 2).val
    rw [tr3, hk2]; simp

/-- So the block read off an array `X` is `X` at that place. -/
theorem read_blk3 (pf : pre0.Contents (Elt Ideal)) (hpf : a.1 = pf) (t : Fin (cfg0 a).N) (X : S64x256x4096.Idx → Elt Ideal .f32) (x : S1x256x2048.Idx) (k : S64x256x4096.Idx)
    (hk0 : (k 0).val = (pf 1 (ix1 (biOf (grid0.coords t)))).toNat) (hk1 : (k 1).val = (x 1).val)
    (hk2 : (k 2).val = (hiOf (grid0.coords t)).val * 2048 + (x 2).val) :
    ((((cfg0 a).win 3).blk t).view.read (Elt Ideal) X : Vec Ideal S1x256x2048 .f32) x = X k := by
  show X ((((cfg0 a).win 3).blk t).view.emb x) = X k
  exact congrArg X (emb3 a pf hpf t x k hk0 hk1 hk2)

/-- An output index lies in step t's block when its row is the step's row and its column lies in the step's half: it is
    the place of a coordinate of the block. -/
theorem mem_blk3 (pf : pre0.Contents (Elt Ideal)) (hpf : a.1 = pf) (t : Fin (cfg0 a).N) (i : S64x256x4096.Idx)
    (h0 : (i 0).val = (pf 1 (ix1 (biOf (grid0.coords t)))).toNat)
    (h2 : (hiOf (grid0.coords t)).val * 2048 ≤ (i 2).val ∧ (i 2).val < (hiOf (grid0.coords t)).val * 2048 + 2048) :
    i ∈ (((cfg0 a).win 3).blk t).view.set := by
  have e := emb3 a pf hpf t (ix3 (0 : Fin 1) (⟨(i 1).val, (i 1).isLt⟩ : Fin 256)
    (⟨(i 2).val - (hiOf (grid0.coords t)).val * 2048, by omega⟩ : Fin 2048)) i h0 rfl
    (by show (i 2).val = (hiOf (grid0.coords t)).val * 2048 + ((i 2).val - (hiOf (grid0.coords t)).val * 2048); omega)
  rw [← e]
  exact View.emb_mem_set _ _

/-- Step number 64·h + k has coordinates (h, k). -/
theorem coords_of (h : Fin 2) (k : Fin 64) (ht : h.val * 64 + k.val < grid0.N) :
    hiOf (grid0.coords ⟨h.val * 64 + k.val, ht⟩) = h ∧ biOf (grid0.coords ⟨h.val * 64 + k.val, ht⟩) = k := by
  have hs0 : grid0.stride 0 = 64 := by decide
  have hs1 : grid0.stride 1 = 1 := by decide
  have hb0 : grid0.bound 0 = 2 := rfl
  have hb1 : grid0.bound 1 = 64 := rfl
  refine ⟨Fin.ext ?_, Fin.ext ?_⟩
  · show (h.val * 64 + k.val) / grid0.stride 0 % grid0.bound 0 = h.val
    rw [hs0, hb0]; have := h.isLt; have := k.isLt; omega
  · show (h.val * 64 + k.val) / grid0.stride 1 % grid0.bound 1 = k.val
    rw [hs1, hb1]; have := h.isLt; have := k.isLt; omega

end Generic

/-! ## The launched program -/

section Launched

variable (m : (ℓ : Loc nD τ sig) → Buf (Elt Ideal) ℓ) (ρ : Dev nD → PrngReg)

/-- The three float argument arrays as launched. -/
abbrev Xa (c : Dev nD) : S64x256x1024.Idx → Elt Ideal .f32 := m ((c : Thread nD τ).loc main_arg0)
abbrev Wa (c : Dev nD) : S16x1024x4096.Idx → Elt Ideal .f32 := m ((c : Thread nD τ).loc main_arg2)
abbrev Ba (c : Dev nD) : S16x4096.Idx → Elt Ideal .f32 := m ((c : Thread nD τ).loc main_arg3)

set_option maxHeartbeats 1000000 in
/-- The bias window's array is the bias with a unit axis inserted between category and column. -/
theorem V9_eq (c : Dev nD) : (V m c main_v9 : S16x1x4096.Idx → Elt Ideal .f32)
    = broadcastInDim S16x1x4096 ![0, 2] bcast_S16x4096_S16x1x4096_0_2 (Ba m c) := by
  dsimp only [V]
  simp only [hostOps0, hostOps0_1, hostOps0_2, hostOps0_3, List.flatten_cons, List.flatten_nil, List.append_nil, List.cons_append, List.nil_append]
  after_results

theorem V9_apply (c : Dev nD) (n : Fin 16) (u : Fin 1) (h : Fin 4096) :
    (V m c main_v9 : S16x1x4096.Idx → Elt Ideal .f32) (ix3 n u h) = Ba m c (ix2 n h) := by
  rw [V9_eq]
  exact broadcastInDim_apply _ bcast_S16x4096_S16x1x4096_0_2 (Ba m c) (ix3 n u h) (ix2 n h) (fun a => match a with
    | ⟨0, _⟩ => by show n.val = if (16 : Nat) = 1 then 0 else n.val; rw [if_neg (by decide)]
    | ⟨1, _⟩ => by show h.val = if (4096 : Nat) = 1 then 0 else h.val; rw [if_neg (by decide)])

/-- Row table entry k, as a number, is σ k. -/
theorem tbl1_row (k : Fin 64) : (tbl m 1 (ix1 k)).toNat = (σ (cat m) k).val := by rw [tbl1_apply, toNat64]

theorem tbl1_inj : Function.Injective fun k : Fin 64 => (tbl m 1 (ix1 k)).toNat := fun k k' e => by
  simp only [tbl1_row] at e
  exact σ_injective (cat m) (Fin.ext e)

variable (cc : Fin 64 → Fin 16) (hc : ∀ p : Fin 64, cat m (ix1 p) = BitVec.ofNat 32 (cc p).val)

include hc in
/-- When every category id is the numeral of `cc p` (so already in range), category table entry k, as a number, is the
    category of batch row σ k. -/
theorem tbl0_cat (k : Fin 64) : (tbl m 0 (ix1 k)).toNat = (cc (σ (cat m) k)).val := by
  rw [tbl0_apply, clip_apply, hc, clip_id, toNat16]

include hc in
/-- The block step t leaves, element by element, is the specification at row σ k and column 2048·h + q. -/
theorem outs_apply (t : Fin (cfgM m (ok m)).N) (u : Fin 1) (r : Fin 256) (q : Fin 2048)
    (hq : (hiOf (grid0.coords t)).val * 2048 + q.val < 4096) :
    (outsAt0 m (ok m) 0 t : Vec Ideal S1x256x2048 .f32) (ix3 u r q)
      = G cc (Xa m 0) (Wa m 0) (Ba m 0)
          (ix3 (σ (cat m) (biOf (grid0.coords t))) r ⟨(hiOf (grid0.coords t)).val * 2048 + q.val, hq⟩) := by
  unfold outsAt0
  refine (congrFun (out_eq (F := Ideal) 0 (grid0.coords t) (ms0_0 m (ok m) t) (hs0_0 m (ok m) t) (ms0_1 m (ok m) t)
    (hs0_1 m (ok m) t) (ms0_2 m (ok m) t) (hs0_2 m (ok m) t) (ms0_3 m (ok m) t) (hs0_3 m (ok m) t)
    (iblk m (ok m) 0 0 t) (iblk m (ok m) 0 1 t) (iblk m (ok m) 0 2 t) (tbl m 0) (tbl m 1)) (ix3 u r q)).trans ?_
  refine (pay_apply (iblk m (ok m) 0 0 t) (iblk m (ok m) 0 1 t) (iblk m (ok m) 0 2 t) u r q).trans ?_
  rw [G_apply]
  unfold at3
  refine congrArg₂ (· + ·) (Finset.sum_congr rfl fun k _ => congrArg₂ (· * ·) ?_ ?_) ?_
  · exact (read_blk0 (adm m (ok m)) (tbl m) rfl t (V m 0 (Pipeline.arrRef spec0 0)) (ix3 (0 : Fin 1) r k)
      (ix3 (σ (cat m) (biOf (grid0.coords t))) r k) (tbl1_row m (biOf (grid0.coords t))).symm rfl rfl).trans
      (congrFun (V_main_arg0 m 0) _)
  · exact (read_blk1 (adm m (ok m)) (tbl m) rfl t (V m 0 (Pipeline.arrRef spec0 1)) (ix3 (0 : Fin 1) k q)
      (ix3 (cc (σ (cat m) (biOf (grid0.coords t)))) k ⟨(hiOf (grid0.coords t)).val * 2048 + q.val, hq⟩)
      (tbl0_cat m cc hc (biOf (grid0.coords t))).symm rfl rfl).trans (congrFun (V_main_arg2 m 0) _)
  · exact (read_blk2 (adm m (ok m)) (tbl m) rfl t (V m 0 (Pipeline.arrRef spec0 2)) (ix3 (0 : Fin 1) (0 : Fin 1) q)
      (ix3 (cc (σ (cat m) (biOf (grid0.coords t)))) (0 : Fin 1) ⟨(hiOf (grid0.coords t)).val * 2048 + q.val, hq⟩)
      (tbl0_cat m cc hc (biOf (grid0.coords t))).symm rfl rfl).trans
      (V9_apply m 0 (cc (σ (cat m) (biOf (grid0.coords t)))) (0 : Fin 1) ⟨(hiOf (grid0.coords t)).val * 2048 + q.val, hq⟩)

include hc in
/-- What step t writes back is the specification read through the step's output block. -/
theorem flushed_eq (t : Fin (cfgM m (ok m)).N) :
    (dats m (ok m) 0 0).flushed 3 t
      = (((cfgM m (ok m)).win 3).blk t).view.read (Elt Ideal) (G cc (Xa m 0) (Wa m 0) (Ba m 0)) := by
  show ((cfgM m (ok m)).win 3).cut (grid0.coords t) ((dats m (ok m) 0 0).after 3 t) = _
  rw [after0_3]
  have key : ∀ y : S1x256x2048.Idx, (outsAt0 m (ok m) 0 t : Vec Ideal S1x256x2048 .f32) y
      = ((((cfgM m (ok m)).win 3).blk t).view.read (Elt Ideal) (G cc (Xa m 0) (Wa m 0) (Ba m 0)) : Vec Ideal S1x256x2048 .f32) y :=
    fun y => by
      have hy : y = ix3 (y 0) (y 1) (y 2) := eq_ix3 y
      have hq : (hiOf (grid0.coords t)).val * 2048 + (y 2).val < 4096 := by
        have h1 := (hiOf (grid0.coords t)).isLt
        have h2 : (y 2).val < 2048 := (y 2).isLt
        omega
      refine ((congrArg (outsAt0 m (ok m) 0 t : Vec Ideal S1x256x2048 .f32) hy).trans
        (outs_apply m cc hc t (y 0) (y 1) (y 2) hq)).trans ?_
      exact (read_blk3 (adm m (ok m)) (tbl m) rfl t (G cc (Xa m 0) (Wa m 0) (Ba m 0)) y
        (ix3 (σ (cat m) (biOf (grid0.coords t))) (y 1) ⟨(hiOf (grid0.coords t)).val * 2048 + (y 2).val, hq⟩)
        (tbl1_row m (biOf (grid0.coords t))).symm rfl rfl).symm
  exact funext key

/-- Every output index is in the block of a step that writes back: the step of its column half at the position σ sends
    to its row. -/
theorem cover (i : S64x256x4096.Idx) :
    ∃ t : Fin (cfgM m (ok m)).N, ((cfgM m (ok m)).win 3).flush t = true ∧ i ∈ (((cfgM m (ok m)).win 3).blk t).view.set := by
  obtain ⟨k, hk⟩ := σ_surjective (cat m) ⟨(i 0).val, (i 0).isLt⟩
  have hk' : (σ (cat m) k).val = (i 0).val := congrArg Fin.val hk
  have h2 : (i 2).val < 4096 := (i 2).isLt
  have hN : grid0.N = 128 := N_0
  have hlt2 : (i 2).val / 2048 < 2 := by omega
  have ht : (⟨(i 2).val / 2048, hlt2⟩ : Fin 2).val * 64 + k.val < grid0.N := by
    show (i 2).val / 2048 * 64 + k.val < grid0.N
    have := k.isLt; omega
  obtain ⟨hh, hb⟩ := coords_of ⟨(i 2).val / 2048, hlt2⟩ k ht
  refine ⟨⟨_, ht⟩, flush_all (adm m (ok m)) (tbl m) rfl (tbl1_inj m) _, mem_blk3 (adm m (ok m)) (tbl m) rfl ⟨_, ht⟩ i ?_ ?_⟩
  · rw [hb]
    exact (hk'.symm.trans (tbl1_row m k).symm)
  · rw [hh]
    show (i 2).val / 2048 * 2048 ≤ (i 2).val ∧ (i 2).val < (i 2).val / 2048 * 2048 + 2048
    omega

include hc in
/-- The output array ends at the specification. -/
theorem final : (dats m (ok m) 0 0).arrAt 3 (cfgM m (ok m)).N = G cc (Xa m 0) (Wa m 0) (Ba m 0) :=
  (dats m (ok m) 0 0).arrAt_eq_of_cover 3 (G cc (Xa m 0) (Wa m 0) (Ba m 0)) (fun t _ => flushed_eq m cc hc t) (cover m)

include hc in
/-- The kernel's run, its result named: every weakly fair execution ends with the output array at the specification
    and the four argument arrays as launched. -/
theorem run : θ_run defs (onTc (τ := τ) (main (F := Ideal))) ⟨m, fun _ => 0, ρ⟩ fun r => ∀ c : Dev nD,
      r.2.mem ((c.tc : Thread nD τ).loc main_v10) = G cc (Xa m c) (Wa m c) (Ba m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => by
      obtain rfl : c = 0 := Subsingleton.elim _ _
      exact ⟨((h 0).1 3).trans (final m cc hc),
        ((h 0).1 0).trans (((dats m (ok m) 0 0).arrAt_in 0 rfl _).trans ((A_eq m (ok m) 0 0).trans (V_main_arg0 m 0))),
        ((h 0).2 main_arg1 (by decide : main_arg1 ∈ Pipeline.restRefs sig spec0)).trans (V_main_arg1 m 0),
        ((h 0).1 1).trans (((dats m (ok m) 0 0).arrAt_in 1 rfl _).trans ((A_eq m (ok m) 0 1).trans (V_main_arg2 m 0))),
        ((h 0).2 main_arg3 (by decide : main_arg3 ∈ Pipeline.restRefs sig spec0)).trans (V_main_arg3 m 0)⟩)
    (run_main m ρ (ok m))

end Launched

end Cert.KernelIdeal.KValue

end
-- ==== Proof.RefValue.lean ====
/-
  The reference program's result is the specification: it gathers, for each batch row, the weight matrix and the bias row of
  the row's category, multiplies and adds. When every category id is the numeral of `c p` (so in range: nothing is
  wrapped from below and nothing is clamped), the gathered matrix of row `p` is matrix `c p`.
-/
import proofs.«416199_j2723009266339_3_alg».proof.Proof.Gen.ReferenceIdeal.Read
import proofs.«416199_j2723009266339_3_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx

/-! ## A gather of whole slices along axis 0, read at an index

Both gathers of the reference take, for batch row `p`, the slice of the operand at the start index found at `[p, 0]` of a
`64 × 1` array of integers, read as a signed number and clamped into `[0, 15]` (the operand has sixteen slices and a slice
is one thick). The other axes are offset axes: the result's coordinate there is the operand's. -/

section Gather
variable {α : Type}

/-- The gathered weight array at `[p, k, h]` is the operand at `[n, k, h]`, `n` the clamped start index of row `p`. -/
theorem gatherW_at {w : Nat} (x : S16x1024x4096.Idx → α) (idx : IVec S64x1 w)
    (p : Fin 64) (k : Fin 1024) (h : Fin 4096) (n : Fin 16) (hn : min (idx (ix2 p 0)).toInt.toNat 15 = n.val) :
    Host.gather gather_S16x1024x4096_S64x1_S64x1024x4096_12_0_n_n_0_1_110244096 x idx (ix3 p k h) = x (ix3 n k h) := by
  unfold Host.gather
  congr 1
  funext a
  refine Fin.ext ?_
  match a with
  | ⟨0, _⟩ =>
    -- the collapsed axis: no batching and no offset coordinate, the start is the clamped start index
    show GatherDims.start _ _ idx 0 + GatherDims.batchCoord _ _ 0 + GatherDims.offCoord _ _ 0 = _
    rw [GatherDims.batchCoord_eq_zero _ _ _ List.not_mem_nil,
      GatherDims.offCoord_eq_zero _ _ _ (fun hh => ((GatherDims.mem_sKept _ _).mp hh).1 (List.mem_singleton.mpr rfl))]
    simp only [Nat.add_zero]
    unfold GatherDims.start
    rw [dif_pos (show (0 : Fin 3) ∈ gather_S16x1024x4096_S64x1_S64x1024x4096_12_0_n_n_0_1_110244096.startIndexMap from
      List.mem_singleton.mpr rfl)]
    have hsi : gather_S16x1024x4096_S64x1_S64x1024x4096_12_0_n_n_0_1_110244096.siIdx (ix3 p k h)
        ⟨List.idxOf (0 : Fin 3) gather_S16x1024x4096_S64x1_S64x1024x4096_12_0_n_n_0_1_110244096.startIndexMap,
          List.idxOf_lt_length_iff.2 (List.mem_singleton.mpr rfl)⟩ = ix2 p 0 := by
      funext b; refine Fin.ext ?_
      match b with
      | ⟨0, _⟩ => rfl
      | ⟨1, _⟩ => rfl
    rw [hsi]
    exact hn
  | ⟨1, _⟩ =>
    -- an offset axis: start 0, no batching, the result's own coordinate
    show GatherDims.start _ _ idx 1 + GatherDims.batchCoord _ _ 1 + GatherDims.offCoord _ _ 1 = _
    rw [GatherDims.batchCoord_eq_zero _ _ _ List.not_mem_nil]
    unfold GatherDims.start
    rw [dif_neg (show ¬ (1 : Fin 3) ∈ gather_S16x1024x4096_S64x1_S64x1024x4096_12_0_n_n_0_1_110244096.startIndexMap by decide)]
    unfold GatherDims.offCoord
    rw [dif_pos (show (1 : Fin 3) ∈ gather_S16x1024x4096_S64x1_S64x1024x4096_12_0_n_n_0_1_110244096.sKept by decide)]
    simp only [Nat.zero_add, Nat.add_zero]
    rfl
  | ⟨2, _⟩ =>
    show GatherDims.start _ _ idx 2 + GatherDims.batchCoord _ _ 2 + GatherDims.offCoord _ _ 2 = _
    rw [GatherDims.batchCoord_eq_zero _ _ _ List.not_mem_nil]
    unfold GatherDims.start
    rw [dif_neg (show ¬ (2 : Fin 3) ∈ gather_S16x1024x4096_S64x1_S64x1024x4096_12_0_n_n_0_1_110244096.startIndexMap by decide)]
    unfold GatherDims.offCoord
    rw [dif_pos (show (2 : Fin 3) ∈ gather_S16x1024x4096_S64x1_S64x1024x4096_12_0_n_n_0_1_110244096.sKept by decide)]
    simp only [Nat.zero_add, Nat.add_zero]
    rfl

/-- The gathered bias array at `[p, h]` is the operand at `[n, h]`, `n` the clamped start index of row `p`. -/
theorem gatherB_at {w : Nat} (x : S16x4096.Idx → α) (idx : IVec S64x1 w)
    (p : Fin 64) (h : Fin 4096) (n : Fin 16) (hn : min (idx (ix2 p 0)).toInt.toNat 15 = n.val) :
    Host.gather gather_S16x4096_S64x1_S64x4096_1_0_n_n_0_1_14096 x idx (ix2 p h) = x (ix2 n h) := by
  unfold Host.gather
  congr 1
  funext a
  refine Fin.ext ?_
  match a with
  | ⟨0, _⟩ =>
    show GatherDims.start _ _ idx 0 + GatherDims.batchCoord _ _ 0 + GatherDims.offCoord _ _ 0 = _
    rw [GatherDims.batchCoord_eq_zero _ _ _ List.not_mem_nil,
      GatherDims.offCoord_eq_zero _ _ _ (fun hh => ((GatherDims.mem_sKept _ _).mp hh).1 (List.mem_singleton.mpr rfl))]
    simp only [Nat.add_zero]
    unfold GatherDims.start
    rw [dif_pos (show (0 : Fin 2) ∈ gather_S16x4096_S64x1_S64x4096_1_0_n_n_0_1_14096.startIndexMap from
      List.mem_singleton.mpr rfl)]
    have hsi : gather_S16x4096_S64x1_S64x4096_1_0_n_n_0_1_14096.siIdx (ix2 p h)
        ⟨List.idxOf (0 : Fin 2) gather_S16x4096_S64x1_S64x4096_1_0_n_n_0_1_14096.startIndexMap,
          List.idxOf_lt_length_iff.2 (List.mem_singleton.mpr rfl)⟩ = ix2 p 0 := by
      funext b; refine Fin.ext ?_
      match b with
      | ⟨0, _⟩ => rfl
      | ⟨1, _⟩ => rfl
    rw [hsi]
    exact hn
  | ⟨1, _⟩ =>
    show GatherDims.start _ _ idx 1 + GatherDims.batchCoord _ _ 1 + GatherDims.offCoord _ _ 1 = _
    rw [GatherDims.batchCoord_eq_zero _ _ _ List.not_mem_nil]
    unfold GatherDims.start
    rw [dif_neg (show ¬ (1 : Fin 2) ∈ gather_S16x4096_S64x1_S64x4096_1_0_n_n_0_1_14096.startIndexMap by decide)]
    unfold GatherDims.offCoord
    rw [dif_pos (show (1 : Fin 2) ∈ gather_S16x4096_S64x1_S64x4096_1_0_n_n_0_1_14096.sKept by decide)]
    simp only [Nat.zero_add, Nat.add_zero]
    rfl

end Gather

/-! ## The category id as a word

A category `n < 16` written as a 32-bit word is not negative, so the reference's wrap of negative ids from below leaves
it alone; read back as a signed number and clamped into `[0, 15]` it is `n` again. Sixteen cases each. -/

/-- The numeral of a category is not below zero as a signed word. -/
theorem word_not_neg (n : Fin 16) : IntOp.cmpi .slt (BitVec.ofNat 32 n.val) 0#32 = 0#1 := by
  revert n; decide

/-- The numeral of a category, read signed and clamped into `[0, 15]`, is the category. -/
theorem word_clamp (n : Fin 16) : min (BitVec.ofNat 32 n.val).toInt.toNat 15 = n.val := by
  revert n; decide

section Index
variable (c : Fin 64 → Fin 16) (x1 : (⟨S64, .i32⟩ : BufTy).Contents (Elt Ideal))
  (hc : ∀ p : Fin 64, x1 (ix1 p) = BitVec.ofNat 32 (c p).val)
include hc

/-- The start index the weight gather reads for row `p` is the numeral of `c p`: the select keeps the id. -/
theorem startW (p : Fin 64) : val_main_v5 (F := Ideal) x1 (ix2 p 0) = BitVec.ofNat 32 (c p).val := by
  have hi : idx_main_v5 (ix2 p (0 : Fin 1)) = ix1 p := by
    funext a; match a with | ⟨0, _⟩ => rfl
  rw [val_main_v5_apply, hi, val_main_v4_apply, val_main_v1_apply, val_main_v0_apply, val_main_c_apply, hc p,
    word_not_neg, select_zero]

/-- The start index the bias gather reads for row `p` is the numeral of `c p`. -/
theorem startB (p : Fin 64) : val_main_v12 (F := Ideal) x1 (ix2 p 0) = BitVec.ofNat 32 (c p).val := by
  have hi : idx_main_v12 (ix2 p (0 : Fin 1)) = ix1 p := by
    funext a; match a with | ⟨0, _⟩ => rfl
  rw [val_main_v12_apply, hi, val_main_v11_apply, val_main_v8_apply, val_main_v7_apply, val_main_c_1_apply, hc p,
    word_not_neg, select_zero]

end Index

/-- The reference's last stage is the specification at the category assignment `c`, when the category ids are its numerals. -/
theorem ref_eq_G (c : Fin 64 → Fin 16)
    (x0 : (⟨S64x256x1024, .f32⟩ : BufTy).Contents (Elt Ideal)) (x1 : (⟨S64, .i32⟩ : BufTy).Contents (Elt Ideal))
    (x2 : (⟨S16x1024x4096, .f32⟩ : BufTy).Contents (Elt Ideal)) (x3 : (⟨S16x4096, .f32⟩ : BufTy).Contents (Elt Ideal))
    (hc : ∀ p : Fin 64, x1 (ix1 p) = BitVec.ofNat 32 (c p).val) :
    val_main_v17 (F := Ideal) x0 x1 x2 x3 = Cert.CatLinear.G c x0 x2 x3 := by
  funext i
  obtain ⟨p, r, h, rfl⟩ : ∃ p r h, i = ix3 p r h := ⟨i 0, i 1, i 2, eq_ix3 i⟩
  -- both sides at [p, r, h]: a sum over the contracted axis plus a bias element
  rw [Cert.CatLinear.G_apply, val_main_v17_apply, val_main_v14_apply, val_main_v16_apply, val_main_v15_apply,
    Ideal.addf_def]
  unfold Cert.CatLinear.at3
  -- the clamped start index of row p, for either gather, is c p
  have hW : min (val_main_v5 (F := Ideal) x1 (ix2 p 0)).toInt.toNat 15 = (c p).val := by
    rw [startW c x1 hc p]; exact word_clamp (c p)
  have hB : min (val_main_v12 (F := Ideal) x1 (ix2 p 0)).toInt.toNat 15 = (c p).val := by
    rw [startB c x1 hc p]; exact word_clamp (c p)
  congr 1
  · -- term by term: x[p, r, k] against the gathered matrix at [p, k, h], which is W[c p, k, h]
    refine Finset.sum_congr rfl fun k _ => ?_
    have hl : lidx_main_v14 (ix3 p r h) k = ix3 p r k := by
      funext a; match a with | ⟨0, _⟩ => rfl | ⟨1, _⟩ => rfl | ⟨2, _⟩ => rfl
    have hr : ridx_main_v14 (ix3 p r h) k = ix3 p k h := by
      funext a; match a with | ⟨0, _⟩ => rfl | ⟨1, _⟩ => rfl | ⟨2, _⟩ => rfl
    rw [hl, hr]
    unfold val_main_v6
    rw [gatherW_at x2 (val_main_v5 (F := Ideal) x1) p k h (c p) hW]
  · -- the broadcast bias at [p, r, h] is the gathered bias at [p, h], which is b[c p, h]
    have hb : idx_main_v15 (idx_main_v16 (ix3 p r h)) = ix2 p h := by
      funext a; match a with | ⟨0, _⟩ => rfl | ⟨1, _⟩ => rfl
    rw [hb]
    unfold val_main_v13
    rw [gatherB_at x3 (val_main_v12 (F := Ideal) x1) p h (c p) hB]

end Cert.ReferenceIdeal.RefValue

end
-- ==== Proof.PreDecode.lean ====
/-
  What the precondition says about the category ids: each is at least 0 and below 16 as a signed word, hence below 16
  as a natural number.

  The precondition is one conjunction of five "all" tests; the last two range over the 64 category ids: every id is at
  least 0, and every id is below 16, both as signed 32-bit words. A conjunction of bits that is 1 has every bit 1, and an
  "all" (a reduction by "and" from 1) that is 1 met only 1s, so both tests hold at each id. A signed word that is at
  least 0 has its top bit clear, so its value is below 2³¹; on such words the signed order is the order of the values, and
  "below the word 16" says the value is below 16.
-/
import proofs.«416199_j2723009266339_3_alg».proof.Pre_finite_inputs
import proofs.«416199_j2723009266339_3_alg».proof.Proof.Gen.Pre_finite_inputs
import Idealize.ShloMosaic.Lib.ReduceAll
import Idealize.ShloMosaic.Lib.StableHlo.Predicate
import Idealize.ShloMosaic.Lib.ValueIdx

noncomputable section

namespace Cert.PreDecode

open Idealize.ShloMosaic Idealize.ShloMosaic.ValueIdx Cert.Pre_finite_inputs

/-- The shape with no axes has one index: two indices are functions on the empty set of axes. -/
instance subsingleton_S_ : Subsingleton S_.Idx := ⟨fun _ _ => funext fun d => d.elim0⟩

/-- A word that is at least 0 in the signed order has its top bit clear: its value is below 2³¹. Were the value 2³¹ or
    more, the word read signed would be the value less 2³², a negative number, and 0 would not be at most it. -/
theorem toNat_lt_of_sge_zero {w : BitVec 32} (h : IntOp.cmpi .sge w 0#32 = 1#1) : w.toNat < 2 ^ 31 := by
  by_contra hc
  have hneg : w.toInt < 0 := by
    rw [BitVec.toInt_eq_toNat_cond, if_neg (by omega)]
    have := w.isLt
    omega
  unfold IntOp.cmpi at h
  rw [StableHlo.Predicate.ofBool_eq_one_iff] at h
  have h0 : (0#32 : BitVec 32).toInt ≤ w.toInt := by simpa [BitVec.sle] using h
  have hz : (0#32 : BitVec 32).toInt = 0 := by decide
  omega

/-- Under the precondition every category id is a natural number below 16. -/
theorem cat_lt {F : FTy → Type} [FloatOps F] [Cert.Pre_finite_inputs.Facts]
    (x0 : FVec F S64x256x1024 .f32) (x1 : IVec S64 32) (x2 : FVec F S16x1024x4096 .f32) (x3 : FVec F S16x4096 .f32)
    (h : Cert.Pre_finite_inputs.fn (F := F) x0 x1 x2 x3 = fun _ => 1#1) (j : S64.Idx) : (x1 j).toNat < 16 := by
  -- the function's one result element, as the printed chain of operations
  have e := congrFun h ValueIdx.ix0
  dsimp only [Cert.Pre_finite_inputs.fn, Cert.Pre_finite_inputs.fn_part1] at e
  -- the outer conjunction: (the first four tests) and (all ids below 16); the next: (the three float tests) and (all ids ≥ 0)
  obtain ⟨e4, hltAll⟩ := IntOp.andi_eq_one.1 e
  obtain ⟨-, hgeAll⟩ := IntOp.andi_eq_one.1 e4
  -- each "all" holds at id j; the broadcast constant read at j is the constant
  have hge : IntOp.cmpi .sge (x1 j) 0#32 = 1#1 := Host.reduce_andi_all _ _ _ _ _ hgeAll j
  have hlt : IntOp.cmpi .slt (x1 j) 16#32 = 1#1 := Host.reduce_andi_all _ _ _ _ _ hltAll j
  -- both words are below 2³¹, where the signed order is the order of the values
  have hv := (StableHlo.Predicate.slt_iff_toNat (toNat_lt_of_sge_zero hge) (by decide)).1 hlt
  simpa using hv

end Cert.PreDecode

end
-- ==== Proof.lean ====
/-
  The claim: a per-category linear layer computed two ways. For a batch of 64 rows, each with a category id, the reference
  gathers each row's 1024 × 4096 weight matrix and bias row by category and multiplies; the kernel clamps the ids into
  [0, 15], visits the rows in category order (so that consecutive steps reuse a weight block), and per step writes one
  column half of one output row. Under the precondition every id is in [0, 16): the clamp changes nothing, the reference's
  wrap of negative ids and its gather's clamp change nothing, and both programs end at

      out[p, r, h] = Σ_{k < 1024} x[p, r, k] · W[id p, k, h]  +  b[id p, h]

  on the extended reals, the same sum in the same form, so no law beyond reading both sides is needed. (Without the
  lower bound the two differ: an id of -1 is category 15 to the reference and category 0 to the kernel.) The frames of
  the two kernel programs hold for all ids: the clamp and the argsort keep every addressed block inside its array.
  The idealization rewrote nothing, so that conjunct is `True`.
-/
import proofs.«416199_j2723009266339_3_alg».proof.Defs
import proofs.«416199_j2723009266339_3_alg».proof.Proof.Gen.Kernel
import proofs.«416199_j2723009266339_3_alg».proof.Proof.Gen.Kernel.Frame
import proofs.«416199_j2723009266339_3_alg».proof.Proof.Gen.KernelIdeal
import proofs.«416199_j2723009266339_3_alg».proof.Proof.Gen.KernelIdeal.Frame
import proofs.«416199_j2723009266339_3_alg».proof.Proof.Gen.ReferenceIdeal
import proofs.«416199_j2723009266339_3_alg».proof.Proof.Gen.ReferenceIdeal.Run
import proofs.«416199_j2723009266339_3_alg».proof.Proof.Gen.ReferenceIdeal.Read
import proofs.«416199_j2723009266339_3_alg».proof.Proof.Gen.Pre_finite_inputs
import proofs.«416199_j2723009266339_3_alg».proof.Proof.TablesBits
import proofs.«416199_j2723009266339_3_alg».proof.Proof.Tables
import proofs.«416199_j2723009266339_3_alg».proof.Proof.KValue
import proofs.«416199_j2723009266339_3_alg».proof.Proof.RefValue
import proofs.«416199_j2723009266339_3_alg».proof.Proof.PreDecode
import Idealize.ShloMosaic.Adequacy
import Idealize.ShloMosaic.Init

noncomputable section

namespace Cert.Proof

open Idealize.ShloMosaic Idealize.SL.Sem Idealize.ShloMosaic.ValueIdx

/-- The category of each batch row, read off ids that are all below 16. -/
def catOf (x1 : IVec ⟨1, ![64]⟩ 32) (h : ∀ j, (x1 j).toNat < 16) : Fin 64 → Fin 16 := fun p => ⟨(x1 (ix1 p)).toNat, h _⟩

/-- Each id is the numeral of its row's category. -/
theorem catOf_spec (x1 : IVec ⟨1, ![64]⟩ 32) (h : ∀ j, (x1 j).toNat < 16) (p : Fin 64) :
    x1 (ix1 p) = BitVec.ofNat 32 (catOf x1 h p).val :=
  BitVec.eq_of_toNat_eq (by
    show _ = (BitVec.ofNat 32 (x1 (ix1 p)).toNat).toNat
    rw [BitVec.toNat_ofNat, Nat.mod_eq_of_lt (by have := h (ix1 p); omega)])

/-- The program as printed runs and keeps its arguments, for any category ids. -/
theorem frame_k : Cert.frame_Kernel := fun m ρ _ => Cert.Kernel.Gen.frame m ρ (Cert.Kernel.Tables.ok m)

/-- So does its idealization. -/
theorem frame_ki : Cert.frame_KernelIdeal := fun m ρ _ => Cert.KernelIdeal.Gen.frame m ρ (Cert.KernelIdeal.Tables.ok m)

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end at the specification under the categories the ids name. -/
theorem algebraic : Cert.algebraic_KernelIdeal_ReferenceIdeal := by
  intro m ρ m' ρ' hpre hagree
  have hlt : ∀ j, (Cert.KernelIdeal.Tables.cat m j).toNat < 16 := fun j => Cert.PreDecode.cat_lt _ _ _ _ (hpre 0) j
  have hc := catOf_spec (Cert.KernelIdeal.Tables.cat m) hlt
  refine ⟨fun c => Cert.CatLinear.G (catOf (Cert.KernelIdeal.Tables.cat m) hlt) (Cert.KernelIdeal.KValue.Xa m c)
    (Cert.KernelIdeal.KValue.Wa m c) (Cert.KernelIdeal.KValue.Ba m c),
    Cert.KernelIdeal.KValue.run m ρ (catOf (Cert.KernelIdeal.Tables.cat m) hlt) hc, ?_⟩
  refine (θ_run Cert.ReferenceIdeal.defs _ _).mono (fun _ h c => ⟨?_, (h c).2⟩)
    (Cert.ReferenceIdeal.Value.run (F := Ideal) m' ρ')
  obtain rfl : c = 0 := Subsingleton.elim _ _
  rw [(h 0).1, Cert.ReferenceIdeal.Read.val_main_v17_eq, (hagree 0).1, (hagree 0).2.1, (hagree 0).2.2.1, (hagree 0).2.2.2]
  exact Cert.ReferenceIdeal.RefValue.ref_eq_G (catOf (Cert.KernelIdeal.Tables.cat m) hlt) _ _ _ _ hc

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
